-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S4000x256 : Shape := ⟨2, ![4000, 256]⟩
abbrev S4000x16 : Shape := ⟨2, ![4000, 16]⟩
abbrev S3200000x16 : Shape := ⟨2, ![3200000, 16]⟩
abbrev S100000x40 : Shape := ⟨2, ![100000, 40]⟩
abbrev S4000x1 : Shape := ⟨2, ![4000, 1]⟩
abbrev S4000x40 : Shape := ⟨2, ![4000, 40]⟩
abbrev S1x16 : Shape := ⟨2, ![1, 16]⟩
abbrev S3200000x40 : Shape := ⟨2, ![3200000, 40]⟩
abbrev S1x40 : Shape := ⟨2, ![1, 40]⟩
abbrev S4000 : Shape := ⟨1, ![4000]⟩

abbrev nBuf : Space → Nat
  | .hbm => 76
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S3200000, .f32⟩
  | .hbm, ⟨39, _⟩ => ⟨S100000, .f32⟩
  | .hbm, ⟨40, _⟩ => ⟨S100000x1, .f32⟩
  | .hbm, ⟨41, _⟩ => ⟨S100000x16, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x16, .f32⟩
  | .hbm, ⟨51, _⟩ => ⟨S3200000x1, .f32⟩
  | .hbm, ⟨52, _⟩ => ⟨S3200000x16, .f32⟩
  | .hbm, ⟨53, _⟩ => ⟨S3200000x16, .f32⟩
  | .hbm, ⟨54, _⟩ => ⟨S_, .f32⟩
  | .hbm, ⟨55, _⟩ => ⟨S100000x16, .f32⟩
  | .hbm, ⟨56, _⟩ => ⟨S3200000x1, .i32⟩
  | .hbm, ⟨57, _⟩ => ⟨S100000x16, .f32⟩
  | .hbm, ⟨58, _⟩ => ⟨S100000x40, .f32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x40, .f32⟩
  | .hbm, ⟨68, _⟩ => ⟨S3200000x1, .f32⟩
  | .hbm, ⟨69, _⟩ => ⟨S3200000x40, .f32⟩
  | .hbm, ⟨70, _⟩ => ⟨S3200000x40, .f32⟩
  | .hbm, ⟨71, _⟩ => ⟨S_, .f32⟩
  | .hbm, ⟨72, _⟩ => ⟨S100000x40, .f32⟩
  | .hbm, ⟨73, _⟩ => ⟨S3200000x1, .i32⟩
  | .hbm, ⟨74, _⟩ => ⟨S100000x40, .f32⟩
  | .hbm, ⟨75, _⟩ => ⟨S100000x40, .f32⟩
  | .local _ .vmem, ⟨0, _⟩ => ⟨S4000x256, .f32⟩
  | .local _ .vmem, ⟨1, _⟩ => ⟨S4000x256, .f32⟩
  | .local _ .vmem, ⟨2, _⟩ => ⟨S256x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S4000x16, .f32⟩
  | .local _ .vmem, ⟨8, _⟩ => ⟨S4000x16, .f32⟩
  | .local _ .vmem, ⟨9, _⟩ => ⟨S4000x1, .f32⟩
  | .local _ .vmem, ⟨10, _⟩ => ⟨S4000x1, .f32⟩
  | .local _ .vmem, ⟨11, _⟩ => ⟨S16, .f32⟩
  | .local _ .vmem, ⟨12, _⟩ => ⟨S16x40, .f32⟩
  | .local _ .vmem, ⟨13, _⟩ => ⟨S4000x40, .f32⟩
  | .local _ .vmem, ⟨14, _⟩ => ⟨S4000x40, .f32⟩
  | .local _ .vmem, ⟨15, _⟩ => ⟨S4000x40, .f32⟩
  | .local _ .vmem, ⟨16, _⟩ => ⟨S4000x40, .f32⟩
  | .local _ .vmem, ⟨17, _⟩ => ⟨S4000x40, .f32⟩
  | .local _ .vmem, ⟨18, _⟩ => ⟨S4000x40, .f32⟩
  | .local _ .vmem, ⟨19, _⟩ => ⟨S4000x1, .f32⟩
  | .local _ .vmem, ⟨20, _⟩ => ⟨S4000x1, .f32⟩
  | .local _ .vmem, ⟨21, _⟩ => ⟨S40, .f32⟩
  | .local _ .vmem, ⟨22, _⟩ => ⟨S4000x40, .f32⟩
  | .local _ .vmem, ⟨23, _⟩ => ⟨S4000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S4000x16_S4000x16_0_0 : ∀ a, (![0, 0] : Fin 2 → Nat) a + S4000x16.size a ≤ S4000x16.size a
  h_S4000x16 : 0 < S4000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S4000x16_S4000x16 : S4000x16.ShapeCasts S4000x16
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  inb_S16x40_S16x40_0_0 : ∀ a, (![0, 0] : Fin 2 → Nat) a + S16x40.size a ≤ S16x40.size a
  h_S16x40 : 0 < S16x40.numel
  inb_S4000x40_S4000x40_0_0 : ∀ a, (![0, 0] : Fin 2 → Nat) a + S4000x40.size a ≤ S4000x40.size a
  h_S4000x40 : 0 < S4000x40.numel
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S4000x40_S4000x40 : S4000x40.ShapeCasts S4000x40
  broadcasts_S4000x1_S4000x40 : S4000x1.Broadcasts S4000x40
  inb_S40_S40_0 : ∀ a, (![0] : Fin 1 → Nat) a + S40.size a ≤ S40.size a
  h_S40 : 0 < S40.numel
  shapeCasts_S40_S1x40 : S40.ShapeCasts S1x40
  broadcasts_S1x40_S4000x40 : S1x40.Broadcasts S4000x40
  reduces_S4000x40_S4000 : S4000x40.Reduces [1] S4000
  shapeCasts_S4000_S4000x1 : S4000.ShapeCasts S4000x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S4000x256_S256x16_S4000x16_1_0_0_1_n_n_wf : DotDims.WF S4000x256 S256x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S4000x16_S16x40_S4000x40_1_0_0_1_n_n_wf : DotDims.WF S4000x16 S16x40 S4000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S100000x16.size a
  hwx1_1 : ∀ i : grid1.Coords, EltTy.bits .f32 = 32 ∨ (Rect.block (s := S100000x16) S4000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x40.size a ≤ S16x40.size a
  hwx1_4 : ∀ i : grid1.Coords, EltTy.bits .f32 = 32 ∨ (Rect.block (s := S16x40) S16x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x40.size a ≤ S100000x40.size a
  hwx1_5 : ∀ i : grid1.Coords, EltTy.bits .f32 = 32 ∨ (Rect.block (s := S100000x40) S4000x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x40.size a ≤ S100000x40.size a
  hwx2_0 : ∀ i : grid2.Coords, EltTy.bits .f32 = 32 ∨ (Rect.block (s := S100000x40) S4000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x40.size a ≤ S100000x40.size a
  hwx2_1 : ∀ i : grid2.Coords, EltTy.bits .f32 = 32 ∨ (Rect.block (s := S100000x40) S4000x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S40.size a ≤ S40.size a
  hwx2_3 : ∀ i : grid2.Coords, EltTy.bits .f32 = 32 ∨ (Rect.block (s := S40) S40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x40.size a ≤ S100000x40.size a
  hwx2_4 : ∀ i : grid2.Coords, EltTy.bits .f32 = 32 ∨ (Rect.block (s := S100000x40) S4000x40.size (cc2_transform_4 i) (hinb2_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S4000x256_S256x16_S4000x16_1_0_0_1_n_n : DotDims S4000x256 S256x16 S4000x16 where
  lhsContracting := [1]
  rhsContracting := [0]
  lhsNonContracting := [0]
  rhsNonContracting := [1]
  lhsBatch := []
  rhsBatch := []
  wf := dot_S4000x256_S256x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S4000x16_S16x40_S4000x40_1_0_0_1_n_n : DotDims S4000x16 S16x40 S4000x40 where
  lhsContracting := [1]
  rhsContracting := [0]
  lhsNonContracting := [0]
  rhsNonContracting := [1]
  lhsBatch := []
  rhsBatch := []
  wf := dot_S4000x16_S16x40_S4000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S4000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S4000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S4000x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S4000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S3200000x16 : Shape := ⟨2, ![3200000, 16]⟩
abbrev S100000x1 : Shape := ⟨2, ![100000, 1]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 106
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S3200000, .f32⟩
  | .hbm, ⟨39, _⟩ => ⟨S100000, .f32⟩
  | .hbm, ⟨40, _⟩ => ⟨S100000x16, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x16, .f32⟩
  | .hbm, ⟨50, _⟩ => ⟨S3200000x1, .f32⟩
  | .hbm, ⟨51, _⟩ => ⟨S3200000x16, .f32⟩
  | .hbm, ⟨52, _⟩ => ⟨S3200000x16, .f32⟩
  | .hbm, ⟨53, _⟩ => ⟨S_, .f32⟩
  | .hbm, ⟨54, _⟩ => ⟨S100000x16, .f32⟩
  | .hbm, ⟨55, _⟩ => ⟨S3200000x1, .i32⟩
  | .hbm, ⟨56, _⟩ => ⟨S100000x16, .f32⟩
  | .hbm, ⟨57, _⟩ => ⟨S100000x1, .f32⟩
  | .hbm, ⟨58, _⟩ => ⟨S100000x16, .f32⟩
  | .hbm, ⟨59, _⟩ => ⟨S100000x16, .f32⟩
  | .hbm, ⟨60, _⟩ => ⟨S100000x16, .f32⟩
  | .hbm, ⟨61, _⟩ => ⟨S1x16, .f32⟩
  | .hbm, ⟨62, _⟩ => ⟨S100000x16, .f32⟩
  | .hbm, ⟨63, _⟩ => ⟨S100000x16, .f32⟩
  | .hbm, ⟨64, _⟩ => ⟨S_, .f32⟩
  | .hbm, ⟨65, _⟩ => ⟨S100000x16, .f32⟩
  | .hbm, ⟨66, _⟩ => ⟨S100000x16, .f32⟩
  | .hbm, ⟨67, _⟩ => ⟨S100000x40, .f32⟩
  | .hbm, ⟨68, _⟩ => ⟨S_, .i32⟩
  | .hbm, ⟨69, _⟩ => ⟨S3200000, .i32⟩
  | .hbm, ⟨70, _⟩ => ⟨S3200000, .i1⟩
  | .hbm, ⟨71, _⟩ => ⟨S_, .i32⟩
  | .hbm, ⟨72, _⟩ => ⟨S3200000, .i32⟩
  | .hbm, ⟨73, _⟩ => ⟨S3200000, .i32⟩
  | .hbm, ⟨74, _⟩ => ⟨S3200000, .i32⟩
  | .hbm, ⟨75, _⟩ => ⟨S3200000x1, .i32⟩
  | .hbm, ⟨76, _⟩ => ⟨S3200000x40, .f32⟩
  | .hbm, ⟨77, _⟩ => ⟨S3200000x1, .f32⟩
  | .hbm, ⟨78, _⟩ => ⟨S3200000x40, .f32⟩
  | .hbm, ⟨79, _⟩ => ⟨S3200000x40, .f32⟩
  | .hbm, ⟨80, _⟩ => ⟨S_, .f32⟩
  | .hbm, ⟨81, _⟩ => ⟨S100000x40, .f32⟩
  | .hbm, ⟨82, _⟩ => ⟨S3200000x1, .i32⟩
  | .hbm, ⟨83, _⟩ => ⟨S100000x40, .f32⟩
  | .hbm, ⟨84, _⟩ => ⟨S100000x1, .f32⟩
  | .hbm, ⟨85, _⟩ => ⟨S100000x40, .f32⟩
  | .hbm, ⟨86, _⟩ => ⟨S100000x40, .f32⟩
  | .hbm, ⟨87, _⟩ => ⟨S100000x40, .f32⟩
  | .hbm, ⟨88, _⟩ => ⟨S1x40, .f32⟩
  | .hbm, ⟨89, _⟩ => ⟨S100000x40, .f32⟩
  | .hbm, ⟨90, _⟩ => ⟨S100000x40, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x40, .f32⟩
  | .hbm, ⟨98, _⟩ => ⟨S100000x40, .f32⟩
  | .hbm, ⟨99, _⟩ => ⟨S100000x40, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x40, .f32⟩
  | .hbm, ⟨105, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call1_cst : Ref sig .tc := ⟨.hbm, 91, rfl⟩
abbrev main_call1_v0 : Ref sig .tc := ⟨.hbm, 92, rfl⟩
abbrev main_call1_cst_0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_cst_1 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_v70 : Ref sig .tc := ⟨.hbm, 105, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x256_S256x16_S100000x16_1_0_0_1_n_n_wf : DotDims.WF S100000x256 S256x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.Spec.lean ====
/-
  The two-layer graph convolution as ONE function of the argument arrays, written with the host operations of the
  reference program.

  With n = 100000 nodes and E = 3200000 edges (src e, dst e), deg v = 1 + #{e : dst e = v}, d = deg^(-1/2):
    edge weight    w e   = d (src e) * d (dst e)            self weight  s v = d v * d v
    aggregate h    (A h) v = sum over edges e with dst e = v of  h (src e) * w e      (a scatter-add of gathered rows)
    layer          L h b   = (A h + h * s) + b              (s broadcast along the feature axis, b along the node axis)
    result         logSoftmaxRows (L (relu (L (x W1) b1) W2) b2)
  Every piece below is a function of its OPERANDS, so that the same piece can be met from the kernel program's side
  (its three tiled regions and the host operations between them) and from the reference's side.
-/
import proofs.«103483_j56642028700327_1_alg».proof.Proof.Gen.ReferenceIdeal
import Idealize.ShloMosaic.PureOps.Ideal

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-- The source node of each edge: row 0 of the edge array. -/
def edgeSrc (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The destination node of each edge: row 1 of the edge array. -/
def edgeDst (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- A node index read the way array indexing reads it: a negative index counts from the end (n is added to it). -/
def wrapNode (v : (⟨S3200000, .i32⟩ : BufTy).Contents (Elt F)) : (⟨S3200000, .i32⟩ : BufTy).Contents (Elt F) :=
  select (cmpi .slt v (broadcastInDim S3200000 ![] bcast_S_S3200000 (constantI S_ 32 0#32)))
    (addi v (broadcastInDim S3200000 ![] bcast_S_S3200000 (constantI S_ 32 100000#32))) v

/-- d = deg^(-1/2), deg v = (number of edges into v) + 1: ones scattered onto the destinations, plus one, rsqrt. -/
def invSqrtDeg (e : (⟨S2x3200000, .i32⟩ : BufTy).Contents (Elt F)) : (⟨S100000, .f32⟩ : BufTy).Contents (Elt F) :=
  Host.rsqrt (addf
    (Host.scatterAdd scatter_S100000_S3200000x1_S3200000_n_0_0_1
      (broadcastInDim S100000 ![] bcast_S_S100000 (constant S_ .f32 0x00000000#32))
      (broadcastInDim S3200000x1 ![0] bcast_S3200000_S3200000x1_0 (edgeDst e))
      (broadcastInDim S3200000 ![] bcast_S_S3200000 (constant S_ .f32 0x3F800000#32)))
    (broadcastInDim S100000 ![] bcast_S_S100000 (constant S_ .f32 0x3F800000#32)))

/-- The weight of each edge: d (src e) * d (dst e). -/
def edgeWeight (e : (⟨S2x3200000, .i32⟩ : BufTy).Contents (Elt F)) : (⟨S3200000, .f32⟩ : BufTy).Contents (Elt F) :=
  mulf
    (Host.gather gather_S100000_S3200000x1_S3200000_n_0_n_n_0_1_1 (invSqrtDeg e)
      (broadcastInDim S3200000x1 ![0] bcast_S3200000_S3200000x1_0 (wrapNode (edgeSrc e))))
    (Host.gather gather_S100000_S3200000x1_S3200000_n_0_n_n_0_1_1 (invSqrtDeg e)
      (broadcastInDim S3200000x1 ![0] bcast_S3200000_S3200000x1_0 (wrapNode (edgeDst e))))

/-- The weight of each node's self loop: d v * d v. -/
def selfWeight (e : (⟨S2x3200000, .i32⟩ : BufTy).Contents (Elt F)) : (⟨S100000, .f32⟩ : BufTy).Contents (Elt F) :=
  mulf (invSqrtDeg e) (invSqrtDeg e)

/-- Aggregation of 16 features: the rows h (src e), each scaled by the edge's weight, summed onto dst e. -/
def aggregate16 (e : (⟨S2x3200000, .i32⟩ : BufTy).Contents (Elt F)) (h : (⟨S100000x16, .f32⟩ : BufTy).Contents (Elt F)) :
    (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 (edgeDst e))
    (mulf
      (Host.gather gather_S100000x16_S3200000x1_S3200000x16_1_0_n_n_0_1_116 h
        (broadcastInDim S3200000x1 ![0] bcast_S3200000_S3200000x1_0 (wrapNode (edgeSrc e))))
      (broadcastInDim S3200000x16 ![0, 1] bcast_S3200000x1_S3200000x16_0_1
        (broadcastInDim S3200000x1 ![0] bcast_S3200000_S3200000x1_0 (edgeWeight e))))

/-- Aggregation of 40 features. -/
def aggregate40 (e : (⟨S2x3200000, .i32⟩ : BufTy).Contents (Elt F)) (h : (⟨S100000x40, .f32⟩ : BufTy).Contents (Elt F)) :
    (⟨S100000x40, .f32⟩ : BufTy).Contents (Elt F) :=
  Host.scatterAdd scatter_S100000x40_S3200000x1_S3200000x40_1_0_0_1
    (broadcastInDim S100000x40 ![] bcast_S_S100000x40 (constant S_ .f32 0x00000000#32))
    (broadcastInDim S3200000x1 ![0] bcast_S3200000_S3200000x1_0 (edgeDst e))
    (mulf
      (Host.gather gather_S100000x40_S3200000x1_S3200000x40_1_0_n_n_0_1_140 h
        (broadcastInDim S3200000x1 ![0] bcast_S3200000_S3200000x1_0 (wrapNode (edgeSrc e))))
      (broadcastInDim S3200000x40 ![0, 1] bcast_S3200000x1_S3200000x40_0_1
        (broadcastInDim S3200000x1 ![0] bcast_S3200000_S3200000x1_0 (edgeWeight e))))

/-- x W1. -/
def project16 (x : (⟨S100000x256, .f32⟩ : BufTy).Contents (Elt F)) (w : (⟨S256x16, .f32⟩ : BufTy).Contents (Elt F)) :
    (⟨S100000x16, .f32⟩ : BufTy).Contents (Elt F) :=
  Host.dotGeneral dot_S100000x256_S256x16_S100000x16_1_0_0_1_n_n none x w

/-- z W2. -/
def project40 (z : (⟨S100000x16, .f32⟩ : BufTy).Contents (Elt F)) (w : (⟨S16x40, .f32⟩ : BufTy).Contents (Elt F)) :
    (⟨S100000x40, .f32⟩ : BufTy).Contents (Elt F) :=
  Host.dotGeneral dot_S100000x16_S16x40_S100000x40_1_0_0_1_n_n none z w

/-- (a + h * s) + b on 16 features: s (one number a node) along the features, b (one a feature) along the nodes. -/
def layer16 (s : (⟨S100000, .f32⟩ : BufTy).Contents (Elt F)) (a h : (⟨S100000x16, .f32⟩ : BufTy).Contents (Elt F))
    (b : (⟨S16, .f32⟩ : BufTy).Contents (Elt F)) : (⟨S100000x16, .f32⟩ : BufTy).Contents (Elt F) :=
  addf (addf a (mulf h (broadcastInDim S100000x16 ![0, 1] bcast_S100000x1_S100000x16_0_1
      (broadcastInDim S100000x1 ![0] bcast_S100000_S100000x1_0 s))))
    (broadcastInDim S100000x16 ![0, 1] bcast_S1x16_S100000x16_0_1 (broadcastInDim S1x16 ![1] bcast_S16_S1x16_1 b))

/-- (a + h * s) + b on 40 features. -/
def layer40 (s : (⟨S100000, .f32⟩ : BufTy).Contents (Elt F)) (a h : (⟨S100000x40, .f32⟩ : BufTy).Contents (Elt F))
    (b : (⟨S40, .f32⟩ : BufTy).Contents (Elt F)) : (⟨S100000x40, .f32⟩ : BufTy).Contents (Elt F) :=
  addf (addf a (mulf h (broadcastInDim S100000x40 ![0, 1] bcast_S100000x1_S100000x40_0_1
      (broadcastInDim S100000x1 ![0] bcast_S100000_S100000x1_0 s))))
    (broadcastInDim S100000x40 ![0, 1] bcast_S1x40_S100000x40_0_1 (broadcastInDim S1x40 ![1] bcast_S40_S1x40_1 b))

/-- max (z, 0), entry by entry. -/
def relu16 (z : (⟨S100000x16, .f32⟩ : BufTy).Contents (Elt F)) : (⟨S100000x16, .f32⟩ : BufTy).Contents (Elt F) :=
  maximumf z (broadcastInDim S100000x16 ![] bcast_S_S100000x16 (constant S_ .f32 0x00000000#32))

/-- The largest entry of each row of 40 (the fold starts from -inf, and is joined with -inf once more). -/
def rowMax (z : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x40_S100000_d1 h_S_)

/-- Each row minus its largest entry. -/
def shiftRows (z : (⟨S100000x40, .f32⟩ : BufTy).Contents (Elt F)) : (⟨S100000x40, .f32⟩ : BufTy).Contents (Elt F) :=
  subf z (broadcastInDim S100000x40 ![0, 1] bcast_S100000x1_S100000x40_0_1
    (broadcastInDim S100000x1 ![0] bcast_S100000_S100000x1_0 (rowMax z)))

/-- log-softmax along each row of 40: (z - max) - log (sum of exp (z - max)). -/
def logSoftmaxRows (z : (⟨S100000x40, .f32⟩ : BufTy).Contents (Elt F)) : (⟨S100000x40, .f32⟩ : BufTy).Contents (Elt F) :=
  subf (shiftRows z) (broadcastInDim S100000x40 ![0, 1] bcast_S100000x1_S100000x40_0_1
    (Host.log (broadcastInDim S100000x1 ![0] bcast_S100000_S100000x1_0
      (Host.reduceAdd (Host.exp (shiftRows z)) (constant S_ .f32 0x00000000#32) reducesTo_S100000x40_S100000_d1 h_S_))))

/-- The hidden features x W1. -/
def hidden1 (x : (⟨S100000x256, .f32⟩ : BufTy).Contents (Elt F)) (w1 : (⟨S256x16, .f32⟩ : BufTy).Contents (Elt F)) :
    (⟨S100000x16, .f32⟩ : BufTy).Contents (Elt F) := project16 x w1

/-- The second layer's features relu (L (x W1) b1) W2. -/
def hidden2 (x : (⟨S100000x256, .f32⟩ : BufTy).Contents (Elt F)) (e : (⟨S2x3200000, .i32⟩ : BufTy).Contents (Elt F))
    (w1 : (⟨S256x16, .f32⟩ : BufTy).Contents (Elt F)) (b1 : (⟨S16, .f32⟩ : BufTy).Contents (Elt F))
    (w2 : (⟨S16x40, .f32⟩ : BufTy).Contents (Elt F)) : (⟨S100000x40, .f32⟩ : BufTy).Contents (Elt F) :=
  project40 (relu16 (layer16 (selfWeight e) (aggregate16 e (hidden1 x w1)) (hidden1 x w1) b1)) w2

/-- The whole network. -/
def gcn (x : (⟨S100000x256, .f32⟩ : BufTy).Contents (Elt F)) (e : (⟨S2x3200000, .i32⟩ : BufTy).Contents (Elt F))
    (w1 : (⟨S256x16, .f32⟩ : BufTy).Contents (Elt F)) (b1 : (⟨S16, .f32⟩ : BufTy).Contents (Elt F))
    (w2 : (⟨S16x40, .f32⟩ : BufTy).Contents (Elt F)) (b2 : (⟨S40, .f32⟩ : BufTy).Contents (Elt F)) :
    (⟨S100000x40, .f32⟩ : BufTy).Contents (Elt F) :=
  logSoftmaxRows (layer40 (selfWeight e) (aggregate40 e (hidden2 x e w1 b1 w2)) (hidden2 x e w1 b1 w2) b2)

end Cert.Gcn

end
-- ==== Proof.HostStretches.lean ====
/-
  The host operations between the tiled regions of the kernel program, read back as the pieces of the specification.

  Before the first region the program slices the edge array into sources and destinations, counts in-degrees by a scatter-add
  of ones, takes d = (deg + 1)^(-1/2), and forms the edge weights d (src) * d (dst) and the self weights d * d (reshaped to a
  column). Between regions it gathers the rows of the region's output at the (wrapped) sources, scales them by the edge
  weights and scatter-adds them onto the destinations. These are operation for operation the reference's host operations,
  so each buffer's contents is one of the specification's functions applied to the contents the stretch started from.
-/
import proofs.«103483_j56642028700327_1_alg».proof.Proof.Gen.KernelIdeal.Frame
import proofs.«103483_j56642028700327_1_alg».proof.Proof.Spec
import Idealize.ShloMosaic.Lib.StableHlo.Run

set_option maxRecDepth 16384

noncomputable section

namespace Cert.Gcn.Stretch

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer no operation of a stretch writes holds after the stretch what it held before. -/
macro "unwritten_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Before the first region -/

/-- The sources, as the first region finds them. -/
theorem src_entry0 (c : Dev nD) :
    W1 m ρ c (Proc.devRef .tc main_v1) = edgeSrc (F := F) (m ((c : Thread nD τ).loc main_arg1)) := by
  show StableHlo.after hostOps0 (W0 m ρ c) (Proc.devRef .tc main_v1) = _
  after_results_simp
  rfl

/-- The destinations, as the first region finds them. -/
theorem dst_entry0 (c : Dev nD) :
    W1 m ρ c (Proc.devRef .tc main_v3) = edgeDst (F := F) (m ((c : Thread nD τ).loc main_arg1)) := by
  show StableHlo.after hostOps0 (W0 m ρ c) (Proc.devRef .tc main_v3) = _
  after_results_simp
  rfl

/-- The edge weights, as the first region finds them. -/
theorem weight_entry0 (c : Dev nD) :
    W1 m ρ c (Proc.devRef .tc main_v25) = edgeWeight (F := F) (m ((c : Thread nD τ).loc main_arg1)) := by
  show StableHlo.after hostOps0 (W0 m ρ c) (Proc.devRef .tc main_v25) = _
  after_results_simp
  rfl

/-- The self weights as a column, as the first region finds them. -/
theorem self_entry0 (c : Dev nD) :
    W1 m ρ c (Proc.devRef .tc main_v27)
      = shapeCast S100000x1 (selfWeight (F := F) (m ((c : Thread nD τ).loc main_arg1))) shapeCasts_S100000_S100000x1 := by
  show StableHlo.after hostOps0 (W0 m ρ c) (Proc.devRef .tc main_v27) = _
  after_results_simp
  rfl

/-- The node features x, as the first region finds them: as launched. -/
theorem x_entry0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by
    unwritten_by hostOps0).trans rfl

/-- The first layer's weights, as the first region finds them: as launched. -/
theorem w1_entry0 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) by
    unwritten_by hostOps0).trans rfl

/-! ## Between the first and the second region -/

/-- The first region writes none of the edge data. -/
theorem src_exit0 (c : Dev nD) :
    W2 m ρ c (Proc.devRef .tc main_v1) = edgeSrc (F := F) (m ((c : Thread nD τ).loc main_arg1)) :=
  (W2_of_ne m ρ c main_v1 (by decide)).trans (src_entry0 m ρ c)
theorem dst_exit0 (c : Dev nD) :
    W2 m ρ c (Proc.devRef .tc main_v3) = edgeDst (F := F) (m ((c : Thread nD τ).loc main_arg1)) :=
  (W2_of_ne m ρ c main_v3 (by decide)).trans (dst_entry0 m ρ c)
theorem weight_exit0 (c : Dev nD) :
    W2 m ρ c (Proc.devRef .tc main_v25) = edgeWeight (F := F) (m ((c : Thread nD τ).loc main_arg1)) :=
  (W2_of_ne m ρ c main_v25 (by decide)).trans (weight_entry0 m ρ c)

/-- The aggregate the second region reads: the first region's output rows gathered at the sources, scaled by the edge
    weights, summed onto the destinations. -/
theorem aggregate_entry1 (c : Dev nD) :
    W3 m ρ c (Proc.devRef .tc main_v41)
      = aggregate16 (F := F) (m ((c : Thread nD τ).loc main_arg1)) (W2 m ρ c (Proc.devRef .tc main_v28)) := by
  have hsrc := src_exit0 m ρ c
  have hdst := dst_exit0 m ρ c
  have hwt := weight_exit0 m ρ c
  show StableHlo.after hostOps1 (W2 m ρ c) (Proc.devRef .tc main_v41) = _
  generalize W2 m ρ c = W at hsrc hdst hwt ⊢
  after_results_simp
  rw [hdst, hsrc, hwt]
  rfl

/-- The stretch leaves the first region's output where it is. -/
theorem features_entry1 (c : Dev nD) :
    W3 m ρ c (Proc.devRef .tc main_v28) = W2 m ρ c (Proc.devRef .tc main_v28) := by
  show StableHlo.after hostOps1 (W2 m ρ c) (Proc.devRef .tc main_v28) = _
  unwritten_by hostOps1

/-- The self weights' column, as the second region finds it. -/
theorem self_entry1 (c : Dev nD) :
    W3 m ρ c (Proc.devRef .tc main_v27)
      = shapeCast S100000x1 (selfWeight (F := F) (m ((c : Thread nD τ).loc main_arg1))) shapeCasts_S100000_S100000x1 :=
  (show StableHlo.after hostOps1 (W2 m ρ c) (Proc.devRef .tc main_v27) = W2 m ρ c (Proc.devRef .tc main_v27) by
    unwritten_by hostOps1).trans ((W2_of_ne m ρ c main_v27 (by decide)).trans (self_entry0 m ρ c))

/-- The first layer's bias, as the second region finds it: as launched. -/
theorem b1_entry1 (c : Dev nD) : W3 m ρ c (Proc.devRef .tc main_arg3) = m ((c : Thread nD τ).loc main_arg3) :=
  (show StableHlo.after hostOps1 (W2 m ρ c) (Proc.devRef .tc main_arg3) = W2 m ρ c (Proc.devRef .tc main_arg3) by
    unwritten_by hostOps1).trans ((W2_of_ne m ρ c main_arg3 (by decide)).trans
  ((show StableHlo.after hostOps0 (W0 m ρ c) (Proc.devRef .tc main_arg3) = W0 m ρ c (Proc.devRef .tc main_arg3) by
    unwritten_by hostOps0).trans rfl))

/-- The second layer's weights, as the second region finds them: as launched. -/
theorem w2_entry1 (c : Dev nD) : W3 m ρ c (Proc.devRef .tc main_arg4) = m ((c : Thread nD τ).loc main_arg4) :=
  (show StableHlo.after hostOps1 (W2 m ρ c) (Proc.devRef .tc main_arg4) = W2 m ρ c (Proc.devRef .tc main_arg4) by
    unwritten_by hostOps1).trans ((W2_of_ne m ρ c main_arg4 (by decide)).trans
  ((show StableHlo.after hostOps0 (W0 m ρ c) (Proc.devRef .tc main_arg4) = W0 m ρ c (Proc.devRef .tc main_arg4) by
    unwritten_by hostOps0).trans rfl))

/-! ## Between the second and the third region -/

/-- Neither the stretch nor the second region writes the edge data. -/
theorem src_exit1 (c : Dev nD) :
    W4 m ρ c (Proc.devRef .tc main_v1) = edgeSrc (F := F) (m ((c : Thread nD τ).loc main_arg1)) :=
  (W4_of_ne m ρ c main_v1 (by decide)).trans
    ((show StableHlo.after hostOps1 (W2 m ρ c) (Proc.devRef .tc main_v1) = W2 m ρ c (Proc.devRef .tc main_v1) by
      unwritten_by hostOps1).trans (src_exit0 m ρ c))
theorem dst_exit1 (c : Dev nD) :
    W4 m ρ c (Proc.devRef .tc main_v3) = edgeDst (F := F) (m ((c : Thread nD τ).loc main_arg1)) :=
  (W4_of_ne m ρ c main_v3 (by decide)).trans
    ((show StableHlo.after hostOps1 (W2 m ρ c) (Proc.devRef .tc main_v3) = W2 m ρ c (Proc.devRef .tc main_v3) by
      unwritten_by hostOps1).trans (dst_exit0 m ρ c))
theorem weight_exit1 (c : Dev nD) :
    W4 m ρ c (Proc.devRef .tc main_v25) = edgeWeight (F := F) (m ((c : Thread nD τ).loc main_arg1)) :=
  (W4_of_ne m ρ c main_v25 (by decide)).trans
    ((show StableHlo.after hostOps1 (W2 m ρ c) (Proc.devRef .tc main_v25) = W2 m ρ c (Proc.devRef .tc main_v25) by
      unwritten_by hostOps1).trans (weight_exit0 m ρ c))

/-- The aggregate the third region reads: the second region's output rows gathered, scaled and summed as before. -/
theorem aggregate_entry2 (c : Dev nD) :
    W5 m ρ c (Proc.devRef .tc main_v55)
      = aggregate40 (F := F) (m ((c : Thread nD τ).loc main_arg1)) (W4 m ρ c (Proc.devRef .tc main_v42)) := by
  have hsrc := src_exit1 m ρ c
  have hdst := dst_exit1 m ρ c
  have hwt := weight_exit1 m ρ c
  show StableHlo.after hostOps2 (W4 m ρ c) (Proc.devRef .tc main_v55) = _
  generalize W4 m ρ c = W at hsrc hdst hwt ⊢
  after_results_simp
  rw [hdst, hsrc, hwt]
  rfl

/-- The stretch leaves the second region's output where it is. -/
theorem features_entry2 (c : Dev nD) :
    W5 m ρ c (Proc.devRef .tc main_v42) = W4 m ρ c (Proc.devRef .tc main_v42) := by
  show StableHlo.after hostOps2 (W4 m ρ c) (Proc.devRef .tc main_v42) = _
  unwritten_by hostOps2

/-- The self weights' column, as the third region finds it: the second region read it through an input window and left
    it as entered. -/
theorem self_entry2 (c : Dev nD) :
    W5 m ρ c (Proc.devRef .tc main_v27)
      = shapeCast S100000x1 (selfWeight (F := F) (m ((c : Thread nD τ).loc main_arg1))) shapeCasts_S100000_S100000x1 :=
  (show StableHlo.after hostOps2 (W4 m ρ c) (Proc.devRef .tc main_v27) = W4 m ρ c (Proc.devRef .tc main_v27) by
    unwritten_by hostOps2).trans
  (((W4_arr m ρ c 2).trans (((dat1 (V3 m ρ) c).arrAt_in 2 rfl _).trans (A_eq1 (V3 m ρ) c 2))).trans (self_entry1 m ρ c))

/-- The second layer's bias, as the third region finds it: as launched. -/
theorem b2_entry2 (c : Dev nD) : W5 m ρ c (Proc.devRef .tc main_arg5) = m ((c : Thread nD τ).loc main_arg5) :=
  (show StableHlo.after hostOps2 (W4 m ρ c) (Proc.devRef .tc main_arg5) = W4 m ρ c (Proc.devRef .tc main_arg5) by
    unwritten_by hostOps2).trans ((W4_of_ne m ρ c main_arg5 (by decide)).trans
  ((show StableHlo.after hostOps1 (W2 m ρ c) (Proc.devRef .tc main_arg5) = W2 m ρ c (Proc.devRef .tc main_arg5) by
    unwritten_by hostOps1).trans ((W2_of_ne m ρ c main_arg5 (by decide)).trans
  ((show StableHlo.after hostOps0 (W0 m ρ c) (Proc.devRef .tc main_arg5) = W0 m ρ c (Proc.devRef .tc main_arg5) by
    unwritten_by hostOps0).trans rfl))))

end Cert.Gcn.Stretch

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.RegionProject.lean ====
/-
  The first tiled region: 25 row blocks of 4000 nodes; block t of the output holds the product of block t of x with the
  whole of W1. Read over the whole array this is x W1: entry (p, q) is the sum over κ of x (p, κ) * W1 (κ, q), whichever
  block p lies in.
-/
import proofs.«103483_j56642028700327_1_alg».proof.Proof.Gen.KernelIdeal.Frame
import proofs.«103483_j56642028700327_1_alg».proof.Proof.Spec
import proofs.«103483_j56642028700327_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Idealize.ShloMosaic Idealize.ShloMosaic.TcCoe Idealize.SL.Sem Idealize.ShloMosaic.ValueIdx
open scoped BigOperators

section Product
open Cert.KernelIdeal Cert.KernelIdeal.Gen

/-- The block product's dimension numbers are those of a plain M×K by K×N product. -/
theorem plain_block : PlainDot.IsPlain Cert.KernelIdeal.dot_S4000x256_S256x16_S4000x16_1_0_0_1_n_n :=
  ⟨rfl, rfl, rfl, rfl, rfl, rfl⟩

/-- So are the whole-array product's. -/
theorem plain_array : PlainDot.IsPlain Cert.ReferenceIdeal.dot_S100000x256_S256x16_S100000x16_1_0_0_1_n_n :=
  ⟨rfl, rfl, rfl, rfl, rfl, rfl⟩

/-- What the body computes from a block of 4000 rows of x and the weights, at (r, q): the changes of format are the
    identity on the extended reals, and the product into the zero accumulator is the sum over κ of
    x0 (r, κ) * x1 (κ, q). -/
theorem block_product_apply (x0 : Vec Ideal S4000x256 .f32) (x1 : Vec Ideal S256x16 .f32) (r : Fin 4000) (q : Fin 16) :
    k0_pay1 (F := Ideal) x0 x1 (ix2 r q) = ∑ κ : Fin 256, x0 (ix2 r κ) * x1 (ix2 κ q) := by
  unfold k0_pay1
  refine (PlainDot.matmul_zero_plain _ plain_block none _ _ r q).trans ?_
  exact Finset.sum_congr rfl fun κ _ => by rw [truncf_apply, truncf_apply]

/-- x W1 at (p, q): the sum over κ of x (p, κ) * w (κ, q). -/
theorem project16_apply (x : Vec Ideal Cert.ReferenceIdeal.S100000x256 .f32) (w : Vec Ideal Cert.ReferenceIdeal.S256x16 .f32)
    (p : Fin 100000) (q : Fin 16) :
    project16 (F := Ideal) x w (ix2 p q) = ∑ κ : Fin 256, x (ix2 p κ) * w (ix2 κ q) := by
  unfold project16
  exact PlainDot.dotGeneral_plain _ plain_array none .single x w p q

/-- A block's entry (r, q) is the whole product's entry (p, q) as soon as row r of the block of x is row p of x and the
    block of weights is the weights. -/
theorem block_entry_eq (x : Vec Ideal S100000x256 .f32) (w : Vec Ideal S256x16 .f32)
    (x0 : Vec Ideal S4000x256 .f32) (x1 : Vec Ideal S256x16 .f32) (p : Fin 100000) (r : Fin 4000) (q : Fin 16)
    (hx : ∀ κ : Fin 256, x0 (ix2 r κ) = x (ix2 p κ)) (hw : ∀ κ : Fin 256, x1 (ix2 κ q) = w (ix2 κ q)) :
    k0_pay1 (F := Ideal) x0 x1 (ix2 r q) = project16 (F := Ideal) x w (ix2 p q) := by
  rw [block_product_apply, project16_apply]
  exact Finset.sum_congr rfl fun κ _ => by rw [hx, hw]

end Product

section Region
open Cert.KernelIdeal Cert.KernelIdeal.Gen
open Idealize.ShloMosaic.Pipeline (Dat)

variable (V : (c : Dev Cert.KernelIdeal.nD) → (b : Ref Cert.KernelIdeal.sig .tc) →
      Buf (Elt Ideal) ((c : Thread Cert.KernelIdeal.nD Cert.KernelIdeal.τ).loc b))

/-- The printed offsets (0, 0) are the zero offsets. -/
theorem zero_offsets : (![0, 0] : Fin 2 → Nat) = fun _ => 0 := funext fun a => by fin_cases a <;> rfl

/-- The index maps over the grid: at point t the blocks of x and of the output are block row t, column block 0; the
    weights' block is (0, 0) at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has 25 points. -/
theorem grid_points : cfg0.N = 25 := by decide +kernel

/-- Point t's block of x is rows 4000 t … 4000 t + 3999 of x, all 256 columns. -/
theorem x_block_apply (c : Dev nD) (t : Fin cfg0.N) (y : S4000x256.Idx) (k : S100000x256.Idx)
    (hk0 : (k 0).val = 4000 * t.val + (y 0).val) (hk1 : (k 1).val = (y 1).val) :
    (iblk0 V c 0 t : Vec Ideal S4000x256 .f32) y = (V c main_arg0 : Vec Ideal S100000x256 .f32) k := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 4000 + 1 * (y 0).val = (k 0).val; rw [e0, hk0]; omega
  | ⟨1, _⟩ => show win0_0.index t 1 * 256 + 1 * (y 1).val = (k 1).val; rw [e1, hk1]; omega

/-- The weights' block is the whole of the weights at every point. -/
theorem w_block_apply (c : Dev nD) (t : Fin cfg0.N) (y : S256x16.Idx) :
    (iblk0 V c 1 t : Vec Ideal S256x16 .f32) y = (V c main_arg2 : Vec Ideal S256x16 .f32) y := by
  obtain ⟨-, -, e0, e1, -⟩ := block_indices t
  unfold iblk0
  rw [View.read_apply]
  show V c main_arg2 _ = V c main_arg2 _
  congr 1
  funext a
  apply Fin.ext
  match a with
  | ⟨0, _⟩ => show win0_1.index t 0 * 256 + 1 * (y 0).val = (y 0).val; rw [e0]; omega
  | ⟨1, _⟩ => show win0_1.index t 1 * 16 + 1 * (y 1).val = (y 1).val; rw [e1]; omega

/-- Row r, column q of point t's output block sits at row 4000 t + r, column q of the output array. -/
theorem out_block_emb (t : Fin cfg0.N) (r : Fin 4000) (q : Fin 16) (p : Fin 100000) (hp : p.val = 4000 * t.val + r.val) :
    (((cfg0.win 2).blk t).view.emb (ix2 r q) : S100000x16.Idx) = ix2 p q := by
  obtain ⟨-, -, -, -, e0, e1⟩ := block_indices t
  funext a
  apply Fin.ext
  match a with
  | ⟨0, _⟩ => show win0_2.index t 0 * 4000 + 1 * r.val = p.val; rw [e0, hp]; omega
  | ⟨1, _⟩ => show win0_2.index t 1 * 16 + 1 * q.val = q.val; rw [e1]; omega

/-- What point t writes back is block t of x W1, x and W1 as the region finds them. -/
theorem flushed_block (c : Dev nD) (t : Fin cfg0.N) :
    (dat0 V c).flushed 2 t
      = ((cfg0.win 2).blk t).view.read (Elt Ideal) (project16 (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S4000x256) zero_offsets, View.ld_unit_zero (S := S256x16) zero_offsets]
  funext j
  obtain ⟨r, q, rfl⟩ : ∃ (r : Fin 4000) (q : Fin 16), j = ix2 r q := ⟨j 0, j 1, eq_ix2 j⟩
  have ht : t.val < 25 := grid_points ▸ t.isLt
  have hp : 4000 * t.val + r.val < 100000 := by have := r.isLt; omega
  show k0_pay1 (F := Ideal) (iblk0 V c 0 t) (iblk0 V c 1 t) (ix2 r q)
    = project16 (F := Ideal) (V c main_arg0) (V c main_arg2) (((cfg0.win 2).blk t).view.emb (ix2 r q))
  rw [out_block_emb t r q ⟨4000 * t.val + r.val, hp⟩ rfl]
  exact block_entry_eq (V c main_arg0) (V c main_arg2) (iblk0 V c 0 t) (iblk0 V c 1 t) ⟨4000 * t.val + r.val, hp⟩ r q
    (fun κ => x_block_apply V c t (ix2 r κ) (ix2 ⟨4000 * t.val + r.val, hp⟩ κ) rfl rfl)
    (fun κ => w_block_apply V c t (ix2 κ q))

/-- An index of the output array lies in point t's block iff, on each axis, it lies in the block's range. -/
theorem mem_out_block (t : Fin cfg0.N) (i : S100000x16.Idx) :
    i ∈ ((cfg0.win 2).blk t).view.set
      ↔ ∀ a : Fin 2, win0_2.index t a * S4000x16.size a ≤ (i a).val
          ∧ (i a).val < win0_2.index t a * S4000x16.size a + S4000x16.size a := by
  show i ∈ ((View.whole main_v28).slice (win0_2.rect t)).set ↔ _
  rw [View.set_slice_whole, Rect.mem_set_unit]
  exact Iff.rfl

/-- Every row p lies in the block of point p / 4000: the 25 blocks tile the output array. -/
theorem out_blocks_cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 4000, by rw [grid_points]; omega⟩
  obtain ⟨-, -, -, -, e0, e1⟩ := block_indices t
  have ht : t.val = (i 0).val / 4000 := rfl
  refine ⟨t, flush0_2 t, ?_⟩
  rw [mem_out_block]
  intro a
  match a with
  | ⟨0, _⟩ =>
    show win0_2.index t 0 * 4000 ≤ (i 0).val ∧ (i 0).val < win0_2.index t 0 * 4000 + 4000
    rw [e0, ht]; omega
  | ⟨1, _⟩ =>
    show win0_2.index t 1 * 16 ≤ (i 1).val ∧ (i 1).val < win0_2.index t 1 * 16 + 16
    rw [e1]; omega

end Region

theorem project_region (V : (c : Dev Cert.KernelIdeal.nD) → (b : Ref Cert.KernelIdeal.sig .tc) →
      Buf (Elt Ideal) ((c : Thread Cert.KernelIdeal.nD Cert.KernelIdeal.τ).loc b)) (c : Dev Cert.KernelIdeal.nD) :
    (Cert.KernelIdeal.Gen.dat0 (F := Ideal) V c).arrAt 2 Cert.KernelIdeal.cfg0.N
      = project16 (F := Ideal) (V c Cert.KernelIdeal.main_arg0) (V c Cert.KernelIdeal.main_arg2) := by
  exact (Cert.KernelIdeal.Gen.dat0 (F := Ideal) V c).arrAt_eq_of_cover 2 _ (fun t _ => flushed_block V c t) out_blocks_cover

end Cert.Gcn

end
-- ==== Proof.RegionHidden.lean ====
/-
  The second tiled region: 25 row blocks of 4000 nodes; on block t it forms relu ((a + h * s) + b1) from the blocks of the
  aggregate a, the features h and the self weights s (a column, one number a node) and multiplies by the whole of W2.
  Read over the whole array this is relu (layer16 s a h b1) W2.
-/
import proofs.«103483_j56642028700327_1_alg».proof.Proof.Gen.KernelIdeal.Frame
import proofs.«103483_j56642028700327_1_alg».proof.Proof.Spec
import proofs.«103483_j56642028700327_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Idealize.ShloMosaic Idealize.ShloMosaic.TcCoe Idealize.SL.Sem Idealize.ShloMosaic.ValueIdx
open scoped BigOperators

/-! ## Layout operations read at an index -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic on one block -/

/-- The body's arithmetic on one block, read at row r and column q: the sum over the 16 hidden features κ of
    max ((a (r, κ) + h (r, κ) * s (r, 0)) + b κ, 0) * w (κ, q). -/
theorem hiddenBlock_apply (xa xh : Vec Ideal Cert.KernelIdeal.S4000x16 .f32) (xs : Vec Ideal Cert.KernelIdeal.S4000x1 .f32)
    (xb : Vec Ideal Cert.KernelIdeal.S16 .f32) (xw : Vec Ideal Cert.KernelIdeal.S16x40 .f32) (r : Fin 4000) (q : Fin 40) :
    Cert.KernelIdeal.Gen.k1_pay1 (F := Ideal) xa xh xs xb xw (ix2 r q)
      = ∑ κ : Fin 16, max ((xa (ix2 r κ) + xh (ix2 r κ) * xs (ix2 r (0 : Fin 1))) + xb (ix1 κ)) (Ideal.ofBits .f32 0x00000000#32)
          * xw (ix2 κ q) := by
  unfold Cert.KernelIdeal.Gen.k1_pay1
  refine (PlainDot.matmul_zero_plain Cert.KernelIdeal.dot_S4000x16_S16x40_S4000x40_1_0_0_1_n_n ⟨rfl, rfl, rfl, rfl, rfl, rfl⟩
    none _ _ r q).trans ?_
  refine Finset.sum_congr rfl fun κ _ => ?_
  -- the pointwise operations and the two format changes read at (r, κ) and (κ, q)
  show max ((shapeCast Cert.KernelIdeal.S4000x16 xa _ (ix2 r κ)
        + shapeCast Cert.KernelIdeal.S4000x16 xh _ (ix2 r κ)
          * broadcastTo Cert.KernelIdeal.S4000x16 (shapeCast Cert.KernelIdeal.S4000x1 xs _) _ (ix2 r κ))
        + broadcastTo Cert.KernelIdeal.S4000x16 (shapeCast Cert.KernelIdeal.S1x16 xb _) _ (ix2 r κ))
      (Ideal.ofBits .f32 0x00000000#32) * xw (ix2 κ q) = _
  rw [shapeCast_self, shapeCast_self, shapeCast_self, broadcastTo_a1_ab_apply, broadcastTo_1b_ab_apply,
    shapeCast_a_1a_apply]

/-! ## The whole-array function read at an index -/

/-- A vector of one number a node, made a column and spread along the features, reads the node's number. -/
theorem nodeBroadcast_apply {α : Type} {n f : ℕ} (x : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, f]⟩ (![0, 1] : Fin 2 → Fin 2)) (p : Fin n) (κ : Fin f) :
    broadcastInDim ⟨2, ![n, f]⟩ ![0, 1] h2 (broadcastInDim ⟨2, ![n, 1]⟩ ![0] h1 x) (ix2 p κ) = x (ix1 p) := by
  refine (broadcastInDim_apply _ h2 _ (ix2 p κ) (ix2 p (0 : Fin 1)) fun ax => ?_).trans
    (broadcastInDim_apply _ h1 x (ix2 p (0 : Fin 1)) (ix1 p) fun ax => ?_)
  · match ax with
    | ⟨0, _⟩ =>
      show p.val = if n = 1 then 0 else p.val
      split
      · have := p.isLt; omega
      · rfl
    | ⟨1, _⟩ => rfl
  · match ax with
    | ⟨0, _⟩ =>
      show p.val = if n = 1 then 0 else p.val
      split
      · have := p.isLt; omega
      · rfl

/-- A vector of one number a feature, made a row and spread along the nodes, reads the feature's number. -/
theorem featureBroadcast_apply {α : Type} {n f : ℕ} (x : (⟨1, ![f]⟩ : Shape).Idx → α)
    (h1 : (⟨1, ![f]⟩ : Shape).BroadcastsInDim ⟨2, ![1, f]⟩ (![1] : Fin 1 → Fin 2))
    (h2 : (⟨2, ![1, f]⟩ : Shape).BroadcastsInDim ⟨2, ![n, f]⟩ (![0, 1] : Fin 2 → Fin 2)) (p : Fin n) (κ : Fin f) :
    broadcastInDim ⟨2, ![n, f]⟩ ![0, 1] h2 (broadcastInDim ⟨2, ![1, f]⟩ ![1] h1 x) (ix2 p κ) = x (ix1 κ) := by
  refine (broadcastInDim_apply _ h2 _ (ix2 p κ) (ix2 (0 : Fin 1) κ) fun ax => ?_).trans
    (broadcastInDim_apply _ h1 x (ix2 (0 : Fin 1) κ) (ix1 κ) fun ax => ?_)
  · match ax with
    | ⟨0, _⟩ => rfl
    | ⟨1, _⟩ =>
      show κ.val = if f = 1 then 0 else κ.val
      split
      · have := κ.isLt; omega
      · rfl
  · match ax with
    | ⟨0, _⟩ =>
      show κ.val = if f = 1 then 0 else κ.val
      split
      · have := κ.isLt; omega
      · rfl

/-- relu (layer16 s a h b) W2 at node p and column q: the sum over the 16 hidden features κ of
    max ((a (p, κ) + h (p, κ) * s p) + b κ, 0) * w (κ, q). -/
theorem hiddenArray_apply (s : (⟨Cert.ReferenceIdeal.S100000, .f32⟩ : BufTy).Contents (Elt Ideal))
    (a h : (⟨Cert.ReferenceIdeal.S100000x16, .f32⟩ : BufTy).Contents (Elt Ideal))
    (b : (⟨Cert.ReferenceIdeal.S16, .f32⟩ : BufTy).Contents (Elt Ideal))
    (w : (⟨Cert.ReferenceIdeal.S16x40, .f32⟩ : BufTy).Contents (Elt Ideal)) (p : Fin 100000) (q : Fin 40) :
    project40 (F := Ideal) (relu16 (layer16 s a h b)) w (ix2 p q)
      = ∑ κ : Fin 16, max ((a (ix2 p κ) + h (ix2 p κ) * s (ix1 p)) + b (ix1 κ)) (Ideal.ofBits .f32 0x00000000#32)
          * w (ix2 κ q) := by
  unfold project40 relu16 layer16
  refine (PlainDot.dotGeneral_plain Cert.ReferenceIdeal.dot_S100000x16_S16x40_S100000x40_1_0_0_1_n_n
    ⟨rfl, rfl, rfl, rfl, rfl, rfl⟩ none _ _ _ p q).trans ?_
  refine Finset.sum_congr rfl fun κ _ => ?_
  -- the pointwise operations read at (p, κ); the scalar 0 spread over the array reads 0 everywhere
  show max ((a (ix2 p κ) + h (ix2 p κ)
          * broadcastInDim Cert.ReferenceIdeal.S100000x16 ![0, 1] _
              (broadcastInDim Cert.ReferenceIdeal.S100000x1 ![0] _ s) (ix2 p κ))
        + broadcastInDim Cert.ReferenceIdeal.S100000x16 ![0, 1] _
            (broadcastInDim Cert.ReferenceIdeal.S1x16 ![1] _ b) (ix2 p κ))
      (Ideal.ofBits .f32 0x00000000#32) * w (ix2 κ q) = _
  rw [nodeBroadcast_apply, featureBroadcast_apply]

/-! ## The blocks of the region's windows -/

/-- The printed index maps over the 25 grid points: the three row-blocked inputs and the output take row block t,
    column block 0; the bias and the weights are their one whole block at every point. -/
theorem hiddenIndexMaps : ∀ t : Fin Cert.KernelIdeal.cfg1.N,
    Cert.KernelIdeal.win1_0.index t (0 : Fin 2) = t.val ∧ Cert.KernelIdeal.win1_0.index t (1 : Fin 2) = 0
    ∧ Cert.KernelIdeal.win1_1.index t (0 : Fin 2) = t.val ∧ Cert.KernelIdeal.win1_1.index t (1 : Fin 2) = 0
    ∧ Cert.KernelIdeal.win1_2.index t (0 : Fin 2) = t.val ∧ Cert.KernelIdeal.win1_2.index t (1 : Fin 2) = 0
    ∧ Cert.KernelIdeal.win1_3.index t (0 : Fin 1) = 0
    ∧ Cert.KernelIdeal.win1_4.index t (0 : Fin 2) = 0 ∧ Cert.KernelIdeal.win1_4.index t (1 : Fin 2) = 0
    ∧ Cert.KernelIdeal.win1_5.index t (0 : Fin 2) = t.val ∧ Cert.KernelIdeal.win1_5.index t (1 : Fin 2) = 0 :=
  (by decide +kernel : ∀ t : Fin Cert.KernelIdeal.grid1.N, _)

section Blocks
variable (V : (c : Dev Cert.KernelIdeal.nD) → (b : Ref Cert.KernelIdeal.sig .tc) →
      Buf (Elt Ideal) ((c : Thread Cert.KernelIdeal.nD Cert.KernelIdeal.τ).loc b)) (c : Dev Cert.KernelIdeal.nD)

/-- The aggregate's block at point t is rows 4000 t … 4000 t + 3999 of the aggregate. -/
theorem aggBlock_apply (t : Fin Cert.KernelIdeal.cfg1.N) (r : Fin 4000) (κ : Fin 16) (p : Fin 100000)
    (hp : p.val = 4000 * t.val + r.val) :
    (Cert.KernelIdeal.Gen.iblk1 V c 0 t : Vec Ideal Cert.KernelIdeal.S4000x16 .f32) (ix2 r κ)
      = (V c Cert.KernelIdeal.main_v41 : Cert.KernelIdeal.S100000x16.Idx → Elt Ideal .f32) (ix2 p κ) := by
  obtain ⟨e0, e1, -⟩ := hiddenIndexMaps t
  unfold Cert.KernelIdeal.Gen.iblk1
  rw [View.read_apply]
  show V c Cert.KernelIdeal.main_v41 _ = V c Cert.KernelIdeal.main_v41 _
  congr 1
  funext a
  apply Fin.ext
  match a with
  | ⟨0, _⟩ => show Cert.KernelIdeal.win1_0.index t (0 : Fin 2) * 4000 + 1 * r.val = p.val; rw [e0, hp]; omega
  | ⟨1, _⟩ => show Cert.KernelIdeal.win1_0.index t (1 : Fin 2) * 16 + 1 * κ.val = κ.val; rw [e1]; omega

/-- The features' block at point t is rows 4000 t … 4000 t + 3999 of the features. -/
theorem featBlock_apply (t : Fin Cert.KernelIdeal.cfg1.N) (r : Fin 4000) (κ : Fin 16) (p : Fin 100000)
    (hp : p.val = 4000 * t.val + r.val) :
    (Cert.KernelIdeal.Gen.iblk1 V c 1 t : Vec Ideal Cert.KernelIdeal.S4000x16 .f32) (ix2 r κ)
      = (V c Cert.KernelIdeal.main_v28 : Cert.KernelIdeal.S100000x16.Idx → Elt Ideal .f32) (ix2 p κ) := by
  obtain ⟨-, -, e0, e1, -⟩ := hiddenIndexMaps t
  unfold Cert.KernelIdeal.Gen.iblk1
  rw [View.read_apply]
  show V c Cert.KernelIdeal.main_v28 _ = V c Cert.KernelIdeal.main_v28 _
  congr 1
  funext a
  apply Fin.ext
  match a with
  | ⟨0, _⟩ => show Cert.KernelIdeal.win1_1.index t (0 : Fin 2) * 4000 + 1 * r.val = p.val; rw [e0, hp]; omega
  | ⟨1, _⟩ => show Cert.KernelIdeal.win1_1.index t (1 : Fin 2) * 16 + 1 * κ.val = κ.val; rw [e1]; omega

/-- The self-weight column's block at point t is rows 4000 t … 4000 t + 3999 of the column. -/
theorem selfBlock_apply (t : Fin Cert.KernelIdeal.cfg1.N) (r : Fin 4000) (p : Fin 100000)
    (hp : p.val = 4000 * t.val + r.val) :
    (Cert.KernelIdeal.Gen.iblk1 V c 2 t : Vec Ideal Cert.KernelIdeal.S4000x1 .f32) (ix2 r (0 : Fin 1))
      = (V c Cert.KernelIdeal.main_v27 : Cert.KernelIdeal.S100000x1.Idx → Elt Ideal .f32) (ix2 p (0 : Fin 1)) := by
  obtain ⟨-, -, -, -, e0, e1, -⟩ := hiddenIndexMaps t
  unfold Cert.KernelIdeal.Gen.iblk1
  rw [View.read_apply]
  show V c Cert.KernelIdeal.main_v27 _ = V c Cert.KernelIdeal.main_v27 _
  congr 1
  funext a
  apply Fin.ext
  match a with
  | ⟨0, _⟩ => show Cert.KernelIdeal.win1_2.index t (0 : Fin 2) * 4000 + 1 * r.val = p.val; rw [e0, hp]; omega
  | ⟨1, _⟩ => show Cert.KernelIdeal.win1_2.index t (1 : Fin 2) * 1 + 1 * 0 = 0; rw [e1]

/-- The bias's block at every point is the bias. -/
theorem biasBlock_apply (t : Fin Cert.KernelIdeal.cfg1.N) (κ : Fin 16) :
    (Cert.KernelIdeal.Gen.iblk1 V c 3 t : Vec Ideal Cert.KernelIdeal.S16 .f32) (ix1 κ)
      = (V c Cert.KernelIdeal.main_arg3 : Cert.KernelIdeal.S16.Idx → Elt Ideal .f32) (ix1 κ) := by
  obtain ⟨-, -, -, -, -, -, e0, -⟩ := hiddenIndexMaps t
  unfold Cert.KernelIdeal.Gen.iblk1
  rw [View.read_apply]
  show V c Cert.KernelIdeal.main_arg3 _ = V c Cert.KernelIdeal.main_arg3 _
  congr 1
  funext a
  apply Fin.ext
  match a with
  | ⟨0, _⟩ => show Cert.KernelIdeal.win1_3.index t (0 : Fin 1) * 16 + 1 * κ.val = κ.val; rw [e0]; omega

/-- The weights' block at every point is the weights. -/
theorem weightBlock_apply (t : Fin Cert.KernelIdeal.cfg1.N) (κ : Fin 16) (q : Fin 40) :
    (Cert.KernelIdeal.Gen.iblk1 V c 4 t : Vec Ideal Cert.KernelIdeal.S16x40 .f32) (ix2 κ q)
      = (V c Cert.KernelIdeal.main_arg4 : Cert.KernelIdeal.S16x40.Idx → Elt Ideal .f32) (ix2 κ q) := by
  obtain ⟨-, -, -, -, -, -, -, e0, e1, -⟩ := hiddenIndexMaps t
  unfold Cert.KernelIdeal.Gen.iblk1
  rw [View.read_apply]
  show V c Cert.KernelIdeal.main_arg4 _ = V c Cert.KernelIdeal.main_arg4 _
  congr 1
  funext a
  apply Fin.ext
  match a with
  | ⟨0, _⟩ => show Cert.KernelIdeal.win1_4.index t (0 : Fin 2) * 16 + 1 * κ.val = κ.val; rw [e0]; omega
  | ⟨1, _⟩ => show Cert.KernelIdeal.win1_4.index t (1 : Fin 2) * 40 + 1 * q.val = q.val; rw [e1]; omega

/-- The output's block at point t sits at rows 4000 t … 4000 t + 3999 of the output array. -/
theorem outBlock_emb (t : Fin Cert.KernelIdeal.cfg1.N) (r : Fin 4000) (q : Fin 40) (p : Fin 100000)
    (hp : p.val = 4000 * t.val + r.val) :
    ((Cert.KernelIdeal.cfg1.win 5).blk t).view.emb (ix2 r q) = (ix2 p q : Cert.KernelIdeal.S100000x40.Idx) := by
  obtain ⟨-, -, -, -, -, -, -, -, -, e0, e1⟩ := hiddenIndexMaps t
  funext a
  apply Fin.ext
  match a with
  | ⟨0, _⟩ => show Cert.KernelIdeal.win1_5.index t (0 : Fin 2) * 4000 + 1 * r.val = p.val; rw [e0, hp]; omega
  | ⟨1, _⟩ => show Cert.KernelIdeal.win1_5.index t (1 : Fin 2) * 40 + 1 * q.val = q.val; rw [e1]; omega

end Blocks

/-! ## From the blocks to the array -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The offsets of a whole-block access of a matrix are zero on both axes. -/
theorem zeros2 : (![0, 0] : Fin 2 → Nat) = fun _ => 0 :=
  funext fun a => match a with | ⟨0, _⟩ => rfl | ⟨1, _⟩ => rfl

/-- The offset of a whole-block access of a vector is zero. -/
theorem zeros1 : (![0] : Fin 1 → Nat) = fun _ => 0 :=
  funext fun a => match a with | ⟨0, _⟩ => rfl

section Region
variable (V : (c : Dev Cert.KernelIdeal.nD) → (b : Ref Cert.KernelIdeal.sig .tc) →
      Buf (Elt Ideal) ((c : Thread Cert.KernelIdeal.nD Cert.KernelIdeal.τ).loc b)) (c : Dev Cert.KernelIdeal.nD)
    (s : (⟨Cert.ReferenceIdeal.S100000, .f32⟩ : BufTy).Contents (Elt Ideal))
    (hcast : Cert.ReferenceIdeal.S100000.ShapeCasts Cert.ReferenceIdeal.S100000x1)
    (hs : V c Cert.KernelIdeal.main_v27 = shapeCast Cert.ReferenceIdeal.S100000x1 s hcast)
include hs

/-- The column the region reads holds the self weights: its entry of row p is s p. -/
theorem selfColumn_apply (p : Fin 100000) :
    (V c Cert.KernelIdeal.main_v27 : Cert.KernelIdeal.S100000x1.Idx → Elt Ideal .f32) (ix2 p (0 : Fin 1)) = s (ix1 p) :=
  (congrFun hs (ix2 p (0 : Fin 1))).trans (shapeCast_a_a1_apply s hcast p 0)

/-- At point t, row r and column q, the body's result is the whole-array function at row 4000 t + r, column q:
    both are the same sum over the 16 hidden features, summand by summand. -/
theorem hiddenPoint (t : Fin Cert.KernelIdeal.cfg1.N) (r : Fin 4000) (q : Fin 40) :
    Cert.KernelIdeal.Gen.k1_pay1 (F := Ideal) (Cert.KernelIdeal.Gen.iblk1 V c 0 t) (Cert.KernelIdeal.Gen.iblk1 V c 1 t)
        (Cert.KernelIdeal.Gen.iblk1 V c 2 t) (Cert.KernelIdeal.Gen.iblk1 V c 3 t) (Cert.KernelIdeal.Gen.iblk1 V c 4 t) (ix2 r q)
      = project40 (F := Ideal)
          (relu16 (layer16 s (V c Cert.KernelIdeal.main_v41) (V c Cert.KernelIdeal.main_v28) (V c Cert.KernelIdeal.main_arg3)))
          (V c Cert.KernelIdeal.main_arg4) (((Cert.KernelIdeal.cfg1.win 5).blk t).view.emb (ix2 r q)) := by
  have ht : t.val < 25 := t.isLt
  have hp : 4000 * t.val + r.val < 100000 := by have := r.isLt; omega
  rw [outBlock_emb t r q ⟨4000 * t.val + r.val, hp⟩ rfl, hiddenArray_apply]
  refine (hiddenBlock_apply _ _ _ _ _ r q).trans (Finset.sum_congr rfl fun κ _ => ?_)
  rw [aggBlock_apply V c t r κ ⟨4000 * t.val + r.val, hp⟩ rfl, featBlock_apply V c t r κ ⟨4000 * t.val + r.val, hp⟩ rfl,
    selfBlock_apply V c t r ⟨4000 * t.val + r.val, hp⟩ rfl, biasBlock_apply V c t κ, weightBlock_apply V c t κ q,
    selfColumn_apply V c s hcast hs]

/-- What point t writes back is block t of the whole-array function. -/
theorem hiddenFlushed (t : Fin Cert.KernelIdeal.cfg1.N) :
    (Cert.KernelIdeal.Gen.dat1 (F := Ideal) V c).flushed 5 t
      = ((Cert.KernelIdeal.cfg1.win 5).blk t).view.read (Elt Ideal) (project40 (F := Ideal)
          (relu16 (layer16 s (V c Cert.KernelIdeal.main_v41) (V c Cert.KernelIdeal.main_v28) (V c Cert.KernelIdeal.main_arg3)))
          (V c Cert.KernelIdeal.main_arg4)) := by
  show (Cert.KernelIdeal.cfg1.win 5).cut (Cert.KernelIdeal.grid1.coords t)
    ((Cert.KernelIdeal.Gen.dat1 (F := Ideal) V c).after 5 t) = _
  rw [Cert.KernelIdeal.Gen.after1_5]
  unfold Cert.KernelIdeal.Gen.out1_5
  rw [View.canon_unit_zero zeros2]
  simp only [View.ld_unit_zero (S := Cert.KernelIdeal.S4000x16) zeros2, View.ld_unit_zero (S := Cert.KernelIdeal.S4000x1) zeros2,
    View.ld_unit_zero (S := Cert.KernelIdeal.S16) zeros1, View.ld_unit_zero (S := Cert.KernelIdeal.S16x40) zeros2]
  funext j
  obtain ⟨r, q, rfl⟩ : ∃ (r : Fin 4000) (q : Fin 40), j = ix2 r q := ⟨j 0, j 1, eq_ix2 j⟩
  exact hiddenPoint V c s hcast hs t r q

end Region

/-- Every entry (p, q) of the output array lies in the block of point p / 4000, at row p % 4000 of it. -/
theorem hiddenCover (i : Cert.KernelIdeal.S100000x40.Idx) :
    ∃ t : Fin Cert.KernelIdeal.cfg1.N, (Cert.KernelIdeal.cfg1.win 5).flush t = true
      ∧ i ∈ ((Cert.KernelIdeal.cfg1.win 5).blk t).view.set := by
  obtain ⟨p, q, rfl⟩ : ∃ (p : Fin 100000) (q : Fin 40), i = ix2 p q := ⟨i 0, i 1, eq_ix2 i⟩
  have hp : p.val < 100000 := p.isLt
  have ht : p.val / 4000 < 25 := by omega
  have hr : p.val % 4000 < 4000 := Nat.mod_lt _ (by decide)
  refine ⟨⟨p.val / 4000, ht⟩, Cert.KernelIdeal.Gen.flush1_5 _, ?_⟩
  have e := outBlock_emb ⟨p.val / 4000, ht⟩ ⟨p.val % 4000, hr⟩ q p
    (by show p.val = 4000 * (p.val / 4000) + p.val % 4000; omega)
  rw [← e]
  exact View.emb_mem_set _ _

theorem hidden_region (V : (c : Dev Cert.KernelIdeal.nD) → (b : Ref Cert.KernelIdeal.sig .tc) →
      Buf (Elt Ideal) ((c : Thread Cert.KernelIdeal.nD Cert.KernelIdeal.τ).loc b)) (c : Dev Cert.KernelIdeal.nD)
    (s : (⟨Cert.ReferenceIdeal.S100000, .f32⟩ : BufTy).Contents (Elt Ideal))
    (hcast : Cert.ReferenceIdeal.S100000.ShapeCasts Cert.ReferenceIdeal.S100000x1)
    (hs : V c Cert.KernelIdeal.main_v27 = shapeCast Cert.ReferenceIdeal.S100000x1 s hcast) :
    (Cert.KernelIdeal.Gen.dat1 (F := Ideal) V c).arrAt 5 Cert.KernelIdeal.cfg1.N
      = project40 (F := Ideal)
          (relu16 (layer16 s (V c Cert.KernelIdeal.main_v41) (V c Cert.KernelIdeal.main_v28) (V c Cert.KernelIdeal.main_arg3)))
          (V c Cert.KernelIdeal.main_arg4) := by
  exact (Cert.KernelIdeal.Gen.dat1 (F := Ideal) V c).arrAt_eq_of_cover 5 _
    (fun t _ => hiddenFlushed V c s hcast hs t) hiddenCover

end Cert.Gcn

end
-- ==== Proof.RegionSoftmax.lean ====
/-
  The third tiled region: 25 row blocks of 4000 nodes; on block t it forms z = (a + h * s) + b2 and, row by row,
  (z - max z) - log (sum (exp (z - max z))). A row's result depends on that row alone, so over the whole array this is the
  row-wise log-softmax of layer40 s a h b2.
-/
import proofs.«103483_j56642028700327_1_alg».proof.Proof.Gen.KernelIdeal.Frame
import proofs.«103483_j56642028700327_1_alg».proof.Proof.Spec
import proofs.«103483_j56642028700327_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Idealize.ShloMosaic Idealize.ShloMosaic.TcCoe Idealize.SL.Sem Idealize.ShloMosaic.ValueIdx

namespace Softmax

/-! ## One row -/

/-- The largest of a row's 40 entries: the fold of `max` over the lanes, started from `-inf`. -/
def rowTop (f : Fin 40 → EReal) : EReal :=
  (Finset.univ : Finset (Fin 40)).fold max (Ideal.ofBits .f32 0xFF800000#32) f

/-- The log-softmax of a row of 40 at lane `q`: (f q - max f) - log (sum of exp (f k - max f)). -/
def rowLogSoftmax (f : Fin 40 → EReal) (q : Fin 40) : EReal :=
  (f q - rowTop f) - Ideal.log (∑ k : Fin 40, Ideal.exp (f k - rowTop f))

/-- The fold's start is below the fold, so joining the fold with its start once more changes nothing. -/
theorem max_start_rowTop (f : Fin 40 → EReal) : max (Ideal.ofBits .f32 0xFF800000#32) (rowTop f) = rowTop f :=
  max_eq_right ((Finset.le_fold_max _).mpr (Or.inl le_rfl))

/-- The exponential and the logarithm of the vector unit read at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
/-- The host's are the same functions. -/
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

/-! ## The block's arithmetic at an index -/

section Block
open Cert.KernelIdeal Cert.KernelIdeal.Gen

/-- A column [4000,1] broadcast along the 40 lanes reads the column's entry of the row. -/
theorem laneBroadcast_apply (v : FVec Ideal S4000x1 .f32) (r : Fin 4000) (q : Fin 40) :
    broadcastTo S4000x40 v broadcasts_S4000x1_S4000x40 (ix2 r q) = v (ix2 r 0) :=
  broadcastTo_apply v _ (ix2 r q) (ix2 r 0) fun a => by
    match a with
    | ⟨0, _⟩ => rfl
    | ⟨1, _⟩ => rfl

/-- The bias [40] viewed [1,40] and broadcast along the 4000 rows reads the bias of the lane. -/
theorem rowBroadcast_apply (b : FVec Ideal S40 .f32) (r : Fin 4000) (q : Fin 40) :
    broadcastTo S4000x40 (shapeCast S1x40 b shapeCasts_S40_S1x40) broadcasts_S1x40_S4000x40 (ix2 r q) = b (ix1 q) := by
  refine (broadcastTo_apply _ _ (ix2 r q) (ix2 (0 : Fin 1) q) fun a => ?_).trans ?_
  · match a with
    | ⟨0, _⟩ => rfl
    | ⟨1, _⟩ => rfl
  · refine shapeCast_apply b _ _ (ix1 q) ?_
    rw [Shape.rowMajor_val_two, Shape.rowMajor_val_one]
    show q.val = 0 * 40 + q.val
    omega

/-- A vector [4000] viewed as a column [4000,1] reads its entry of the row. -/
theorem column_apply (v : FVec Ideal S4000 .f32) (r : Fin 4000) :
    shapeCast S4000x1 v shapeCasts_S4000_S4000x1 (ix2 r 0) = v (ix1 r) := by
  refine shapeCast_apply v _ _ (ix1 r) ?_
  rw [Shape.rowMajor_val_two, Shape.rowMajor_val_one]
  show r.val = r.val * 1 + 0
  omega

/-- The index of row `r` with lane `k` put back on the reduced axis. -/
theorem lift_row (r : Fin 4000) (k : Fin 40) : reduces_S4000x40_S4000.lift (ix1 r) k = ix2 r k :=
  funext fun a => Fin.ext (by
    match a with
    | ⟨0, _⟩ => rfl
    | ⟨1, _⟩ => rfl)

/-- The lane maximum of a block at row `r` is the largest entry of that row. -/
theorem laneMax_apply (z : FVec Ideal S4000x40 .f32) (hφ : FKind.Formats .f32)
    (hacc : (0xFF800000#32 : BitVec 32) = FKind.maximumf.neutral .f32 hφ) (r : Fin 4000) :
    multiReduction (F := Ideal) .maximumf [1] S4000 z 0xFF800000#32 reduces_S4000x40_S4000 hφ hacc (ix1 r)
      = rowTop fun k => z (ix2 r k) := by
  refine (Ideal.multiReduction_maximumf_single z 0xFF800000#32 reduces_S4000x40_S4000 hφ hacc (ix1 r)).trans ?_
  exact congrArg (Finset.fold max (Ideal.ofBits .f32 0xFF800000#32) · Finset.univ) (funext fun k => congrArg z (lift_row r k))

/-- The lane sum of a block at row `r` is the sum of that row. -/
theorem laneSum_apply (z : FVec Ideal S4000x40 .f32) (hφ : FKind.Formats .f32)
    (hacc : (0x00000000#32 : BitVec 32) = FKind.add.neutral .f32 hφ) (r : Fin 4000) :
    multiReduction (F := Ideal) .add [1] S4000 z 0x00000000#32 reduces_S4000x40_S4000 hφ hacc (ix1 r)
      = ∑ k : Fin 40, z (ix2 r k) :=
  (Ideal.multiReduction_add_single z _ reduces_S4000x40_S4000 hφ hacc (ix1 r)).trans
    (Finset.sum_congr rfl fun k _ => congrArg z (lift_row r k))

end Block

section Block
open Cert.KernelIdeal Cert.KernelIdeal.Gen

/-- The block before the softmax, at row `r`, lane `k`: (x0 + x1 * column) + bias. -/
theorem preactivation_apply (x0 x1 : FVec Ideal S4000x40 .f32) (x2 : FVec Ideal S4000x1 .f32) (x3 : FVec Ideal S40 .f32)
    (r : Fin 4000) (k : Fin 40) :
    addf (addf x0 (mulf x1 (broadcastTo S4000x40 x2 broadcasts_S4000x1_S4000x40)))
        (broadcastTo S4000x40 (shapeCast S1x40 x3 shapeCasts_S40_S1x40) broadcasts_S1x40_S4000x40) (ix2 r k)
      = (x0 (ix2 r k) + x1 (ix2 r k) * x2 (ix2 r 0)) + x3 (ix1 k) := by
  rw [addf_apply, addf_apply, mulf_apply, laneBroadcast_apply, rowBroadcast_apply]

/-- The block's softmax stage on any block `z`, at row `r`, lane `q`: the log-softmax of row `r` of `z`. -/
theorem softmaxBlock_apply (z : FVec Ideal S4000x40 .f32) (hφ : FKind.Formats .f32)
    (hmax : (0xFF800000#32 : BitVec 32) = FKind.maximumf.neutral .f32 hφ)
    (hadd : (0x00000000#32 : BitVec 32) = FKind.add.neutral .f32 hφ) (r : Fin 4000) (q : Fin 40) :
    subf (subf z (broadcastTo S4000x40 (shapeCast S4000x1
          (multiReduction (F := Ideal) .maximumf [1] S4000 z 0xFF800000#32 reduces_S4000x40_S4000 hφ hmax)
          shapeCasts_S4000_S4000x1) broadcasts_S4000x1_S4000x40))
        (broadcastTo S4000x40 (log (shapeCast S4000x1
          (multiReduction (F := Ideal) .add [1] S4000
            (exp (subf z (broadcastTo S4000x40 (shapeCast S4000x1
              (multiReduction (F := Ideal) .maximumf [1] S4000 z 0xFF800000#32 reduces_S4000x40_S4000 hφ hmax)
              shapeCasts_S4000_S4000x1) broadcasts_S4000x1_S4000x40)))
            0x00000000#32 reduces_S4000x40_S4000 hφ hadd)
          shapeCasts_S4000_S4000x1)) broadcasts_S4000x1_S4000x40) (ix2 r q)
      = rowLogSoftmax (fun k => z (ix2 r k)) q := by
  simp only [subf_apply, laneBroadcast_apply, column_apply, log_apply, exp_apply, laneMax_apply z hφ hmax r,
    laneSum_apply _ hφ hadd r]
  rfl

/-- The block's arithmetic at row `r`, lane `q`: the log-softmax of the row of (x0 + x1 * column) + bias. -/
theorem payload_apply (x0 x1 : Vec Ideal S4000x40 .f32) (x2 : Vec Ideal S4000x1 .f32) (x3 : Vec Ideal S40 .f32)
    (r : Fin 4000) (q : Fin 40) :
    k2_pay1 x0 x1 x2 x3 (ix2 r q)
      = rowLogSoftmax (fun k => (x0 (ix2 r k) + x1 (ix2 r k) * x2 (ix2 r 0)) + x3 (ix1 k)) q := by
  unfold k2_pay1
  simp only [shapeCast_self]
  refine (softmaxBlock_apply _ _ _ _ r q).trans ?_
  exact congrArg (rowLogSoftmax · q) (funext fun k => preactivation_apply x0 x1 x2 x3 r k)

end Block

/-! ## The whole-array function at an index -/

section Array
open Cert.ReferenceIdeal Cert.ReferenceIdeal.Gen

/-- One number a node, broadcast to a column and then along the 40 features, reads the node's number. -/
theorem nodeBroadcast_apply (v : Vec Ideal S100000 .f32) (p : Fin 100000) (q : Fin 40) :
    broadcastInDim S100000x40 ![0, 1] bcast_S100000x1_S100000x40_0_1
      (broadcastInDim S100000x1 ![0] bcast_S100000_S100000x1_0 v) (ix2 p q) = v (ix1 p) := by
  refine (broadcastInDim_apply _ _ _ (ix2 p q) (ix2 p (0 : Fin 1)) fun a => ?_).trans ?_
  · match a with
    | ⟨0, _⟩ => rfl
    | ⟨1, _⟩ => rfl
  · refine broadcastInDim_apply _ _ v _ (ix1 p) fun a => ?_
    match a with
    | ⟨0, _⟩ => rfl

/-- A column [100000,1] broadcast along the 40 features reads the column's entry of the node. -/
theorem featureBroadcast_apply (v : Vec Ideal S100000x1 .f32) (p : Fin 100000) (q : Fin 40) :
    broadcastInDim S100000x40 ![0, 1] bcast_S100000x1_S100000x40_0_1 v (ix2 p q) = v (ix2 p 0) :=
  broadcastInDim_apply _ _ v (ix2 p q) (ix2 p (0 : Fin 1)) fun a => by
    match a with
    | ⟨0, _⟩ => rfl
    | ⟨1, _⟩ => rfl

/-- A vector [100000] broadcast to a column [100000,1] reads its entry of the node. -/
theorem nodeColumn_apply (v : Vec Ideal S100000 .f32) (p : Fin 100000) :
    broadcastInDim S100000x1 ![0] bcast_S100000_S100000x1_0 v (ix2 p 0) = v (ix1 p) :=
  broadcastInDim_apply _ _ v (ix2 p (0 : Fin 1)) (ix1 p) fun a => by
    match a with
    | ⟨0, _⟩ => rfl

/-- One number a feature, broadcast to a row and then along the nodes, reads the feature's number. -/
theorem biasBroadcast_apply (b : Vec Ideal S40 .f32) (p : Fin 100000) (q : Fin 40) :
    broadcastInDim S100000x40 ![0, 1] bcast_S1x40_S100000x40_0_1
      (broadcastInDim S1x40 ![1] bcast_S40_S1x40_1 b) (ix2 p q) = b (ix1 q) := by
  refine (broadcastInDim_apply _ _ _ (ix2 p q) (ix2 (0 : Fin 1) q) fun a => ?_).trans ?_
  · match a with
    | ⟨0, _⟩ => rfl
    | ⟨1, _⟩ => rfl
  · refine broadcastInDim_apply _ _ b _ (ix1 q) fun a => ?_
    match a with
    | ⟨0, _⟩ => rfl

/-- The layer at node `p`, feature `q`. -/
theorem layer40_apply (s : Vec Ideal S100000 .f32) (a h : Vec Ideal S100000x40 .f32) (b : Vec Ideal S40 .f32)
    (p : Fin 100000) (q : Fin 40) :
    layer40 (F := Ideal) s a h b (ix2 p q) = (a (ix2 p q) + h (ix2 p q) * s (ix1 p)) + b (ix1 q) := by
  unfold layer40
  rw [addf_apply, addf_apply, mulf_apply, nodeBroadcast_apply, biasBroadcast_apply]

/-- The reduction of the 40 features keeps the node axis. -/
theorem reduces_features : S100000x40.Reduces [1] S100000 := by decide

/-- The index of node `p` with feature `k` put back on the reduced axis. -/
theorem lift_node (p : Fin 100000) (k : Fin 40) : reduces_features.lift (ix1 p) k = ix2 p k :=
  funext fun a => Fin.ext (by
    match a with
    | ⟨0, _⟩ => rfl
    | ⟨1, _⟩ => rfl)

/-- The host's maximum over the features at node `p` is the largest entry of the node's row. -/
theorem featureMax_apply (z : FVec Ideal S100000x40 .f32) (p : Fin 100000) :
    Host.reduce FloatOps.maximumf z (constant (F := Ideal) S_ .f32 0xFF800000#32) reducesTo_S100000x40_S100000_d1 h_S_ (ix1 p)
      = rowTop fun k => z (ix2 p k) := by
  rw [Host.reduce_eq_fold_single FloatOps.maximumf z _ reducesTo_S100000x40_S100000_d1 reduces_features h_S_]
  exact congrArg (Finset.fold max (Ideal.ofBits .f32 0xFF800000#32) · Finset.univ) (funext fun k => congrArg z (lift_node p k))

/-- The host's sum over the features at node `p` is the sum of the node's row. -/
theorem featureSum_apply (z : FVec Ideal S100000x40 .f32) (p : Fin 100000) :
    Host.reduceAdd z (constant (F := Ideal) S_ .f32 0x00000000#32) reducesTo_S100000x40_S100000_d1 h_S_ (ix1 p)
      = ∑ k : Fin 40, z (ix2 p k) := by
  unfold Host.reduceAdd
  rw [Ideal.hostReduceAdd_def, Ideal.hostReduceAdd_single reducesTo_S100000x40_S100000_d1 reduces_features]
  show Ideal.ofBits .f32 0x00000000#32 + _ = _
  rw [Ideal.ofBits_zero_f32, zero_add]
  exact Finset.sum_congr rfl fun k _ => congrArg z (lift_node p k)

/-- The row maximum of the specification at node `p`. -/
theorem rowMax_apply (z : Vec Ideal S100000x40 .f32) (p : Fin 100000) :
    rowMax (F := Ideal) z (ix1 p) = rowTop fun k => z (ix2 p k) := by
  unfold rowMax
  rw [maximumf_apply, featureMax_apply]
  exact max_start_rowTop _

/-- The shifted row of the specification at node `p`, feature `q`. -/
theorem shiftRows_apply (z : Vec Ideal S100000x40 .f32) (p : Fin 100000) (q : Fin 40) :
    shiftRows (F := Ideal) z (ix2 p q) = z (ix2 p q) - rowTop fun k => z (ix2 p k) := by
  unfold shiftRows
  rw [subf_apply, nodeBroadcast_apply, rowMax_apply]

/-- The specification's log-softmax at node `p`, feature `q`, is the log-softmax of the node's row. -/
theorem logSoftmaxRows_apply (z : Vec Ideal S100000x40 .f32) (p : Fin 100000) (q : Fin 40) :
    logSoftmaxRows (F := Ideal) z (ix2 p q) = rowLogSoftmax (fun k => z (ix2 p k)) q := by
  unfold logSoftmaxRows
  rw [subf_apply, featureBroadcast_apply, hostLog_apply, nodeColumn_apply, featureSum_apply, shiftRows_apply]
  simp only [hostExp_apply, shiftRows_apply]
  rfl

end Array

/-! ## From the blocks to the array -/

section Region
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The printed index maps over the 25 points: a row-blocked window sits at block (t, 0), the bias at block 0. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = t.val ∧ win2_4.index t (1 : Fin 2) = 0
    ∧ t.val < 25 :=
  (by decide +kernel : ∀ t : Fin grid2.N, _)

/-- Every row block is some point's. -/
theorem block_onto : ∀ n : Fin 25, ∃ t : Fin cfg2.N, win2_4.index t (0 : Fin 2) = n.val ∧ win2_4.index t (1 : Fin 2) = 0 :=
  (by decide +kernel : ∀ n : Fin 25, ∃ t : Fin grid2.N, win2_4.index t (0 : Fin 2) = n.val ∧ win2_4.index t (1 : Fin 2) = 0)

/-- Point `t`'s block of the aggregate is rows 4000 t … 4000 t + 3999 of the array. -/
theorem aggregateBlock_apply (c : Dev nD) (t : Fin cfg2.N) (r : Fin 4000) (q : Fin 40) (p : Fin 100000)
    (hp : p.val = 4000 * t.val + r.val) :
    (iblk2 V c 0 t : Vec Ideal S4000x40 .f32) (ix2 r q) = (V c main_v55 : Vec Ideal S100000x40 .f32) (ix2 p q) := by
  obtain ⟨e0, e1, -⟩ := block_indices t
  unfold iblk2
  rw [View.read_apply]
  show V c main_v55 _ = V c main_v55 _
  congr 1
  funext a
  apply Fin.ext
  match a with
  | ⟨0, _⟩ => show win2_0.index t 0 * 4000 + 1 * r.val = p.val; rw [e0, hp]; omega
  | ⟨1, _⟩ => show win2_0.index t 1 * 40 + 1 * q.val = q.val; rw [e1]; omega

/-- Point `t`'s block of the features is the same rows of their array. -/
theorem featureBlock_apply (c : Dev nD) (t : Fin cfg2.N) (r : Fin 4000) (q : Fin 40) (p : Fin 100000)
    (hp : p.val = 4000 * t.val + r.val) :
    (iblk2 V c 1 t : Vec Ideal S4000x40 .f32) (ix2 r q) = (V c main_v42 : Vec Ideal S100000x40 .f32) (ix2 p q) := by
  obtain ⟨-, -, e0, e1, -⟩ := block_indices t
  unfold iblk2
  rw [View.read_apply]
  show V c main_v42 _ = V c main_v42 _
  congr 1
  funext a
  apply Fin.ext
  match a with
  | ⟨0, _⟩ => show win2_1.index t 0 * 4000 + 1 * r.val = p.val; rw [e0, hp]; omega
  | ⟨1, _⟩ => show win2_1.index t 1 * 40 + 1 * q.val = q.val; rw [e1]; omega

/-- Point `t`'s block of the self-weight column is the same rows of the column. -/
theorem weightBlock_apply (c : Dev nD) (t : Fin cfg2.N) (r : Fin 4000) (p : Fin 100000)
    (hp : p.val = 4000 * t.val + r.val) :
    (iblk2 V c 2 t : Vec Ideal S4000x1 .f32) (ix2 r 0) = (V c main_v27 : Vec Ideal S100000x1 .f32) (ix2 p 0) := by
  obtain ⟨-, -, -, -, e0, e1, -⟩ := block_indices t
  unfold iblk2
  rw [View.read_apply]
  show V c main_v27 _ = V c main_v27 _
  congr 1
  funext a
  apply Fin.ext
  match a with
  | ⟨0, _⟩ => show win2_2.index t 0 * 4000 + 1 * r.val = p.val; rw [e0, hp]; omega
  | ⟨1, _⟩ => show win2_2.index t 1 * 1 + 1 * 0 = 0; rw [e1]

/-- Every point's block of the bias is the whole bias. -/
theorem biasBlock_apply (c : Dev nD) (t : Fin cfg2.N) (q : Fin 40) :
    (iblk2 V c 3 t : Vec Ideal S40 .f32) (ix1 q) = (V c main_arg5 : Vec Ideal S40 .f32) (ix1 q) := by
  obtain ⟨-, -, -, -, -, -, e0, -⟩ := block_indices t
  unfold iblk2
  rw [View.read_apply]
  show V c main_arg5 _ = V c main_arg5 _
  congr 1
  funext a
  apply Fin.ext
  match a with
  | ⟨0, _⟩ => show win2_3.index t 0 * 40 + 1 * q.val = q.val; rw [e0]; omega

/-- The self-weight column at node `p` is the node's self weight. -/
theorem weightColumn_apply (s : (⟨Cert.ReferenceIdeal.S100000, .f32⟩ : BufTy).Contents (Elt Ideal))
    (hcast : Cert.ReferenceIdeal.S100000.ShapeCasts Cert.ReferenceIdeal.S100000x1) (p : Fin 100000) :
    shapeCast Cert.ReferenceIdeal.S100000x1 s hcast (ix2 p 0) = s (ix1 p) := by
  refine shapeCast_apply s hcast _ (ix1 p) ?_
  rw [Shape.rowMajor_val_two, Shape.rowMajor_val_one]
  show p.val = p.val * 1 + 0
  omega

/-- What point `t` writes back is block `t` of the row-wise log-softmax of the layer. -/
theorem flushed_softmax (c : Dev nD) (s : (⟨Cert.ReferenceIdeal.S100000, .f32⟩ : BufTy).Contents (Elt Ideal))
    (hcast : Cert.ReferenceIdeal.S100000.ShapeCasts Cert.ReferenceIdeal.S100000x1)
    (hs : V c main_v27 = shapeCast Cert.ReferenceIdeal.S100000x1 s hcast) (t : Fin cfg2.N) :
    (dat2 (F := Ideal) V c).flushed 4 t = ((cfg2.win 4).blk t).view.read (Elt Ideal)
      (logSoftmaxRows (F := Ideal) (layer40 s (V c main_v55) (V c main_v42) (V c main_arg5))) := by
  show (cfg2.win 4).cut (grid2.coords t) ((dat2 V c).after 4 t) = _
  rw [after2_4]
  unfold out2_4
  rw [View.canon_unit_zero zeros2]
  simp only [View.ld_unit_zero (S := S4000x40) zeros2, View.ld_unit_zero (S := S4000x1) zeros2, View.ld_unit_zero (S := S40) zeros1]
  funext j
  obtain ⟨r, q, rfl⟩ : ∃ (r : Fin 4000) (q : Fin 40), j = ix2 r q := ⟨j 0, j 1, eq_ix2 j⟩
  obtain ⟨-, -, -, -, -, -, -, e0, e1, ht⟩ := block_indices t
  have hp : 4000 * t.val + r.val < 100000 := by have := r.isLt; omega
  have hemb : ((cfg2.win 4).blk t).view.emb (ix2 r q) = (ix2 (⟨4000 * t.val + r.val, hp⟩ : Fin 100000) q : S100000x40.Idx) := by
    funext a
    apply Fin.ext
    match a with
    | ⟨0, _⟩ => show win2_4.index t 0 * 4000 + 1 * r.val = 4000 * t.val + r.val; rw [e0]; omega
    | ⟨1, _⟩ => show win2_4.index t 1 * 40 + 1 * q.val = q.val; rw [e1]; omega
  show k2_pay1 (iblk2 V c 0 t) (iblk2 V c 1 t) (iblk2 V c 2 t) (iblk2 V c 3 t) (ix2 r q)
    = logSoftmaxRows (F := Ideal) (layer40 s (V c main_v55) (V c main_v42) (V c main_arg5))
        (((cfg2.win 4).blk t).view.emb (ix2 r q))
  rw [hemb]
  refine (payload_apply (iblk2 V c 0 t) (iblk2 V c 1 t) (iblk2 V c 2 t) (iblk2 V c 3 t) r q).trans ?_
  refine Eq.trans ?_ (logSoftmaxRows_apply _ ⟨4000 * t.val + r.val, hp⟩ q).symm
  refine congrArg (rowLogSoftmax · q) (funext fun k => ?_)
  rw [layer40_apply, aggregateBlock_apply V c t r k ⟨_, hp⟩ rfl, featureBlock_apply V c t r k ⟨_, hp⟩ rfl,
    weightBlock_apply V c t r ⟨_, hp⟩ rfl, biasBlock_apply V c t k, hs, weightColumn_apply]

/-- An index of the array is in point `t`'s block iff each coordinate is in the block's range on its axis. -/
theorem mem_block (t : Fin cfg2.N) (i : S100000x40.Idx) :
    i ∈ ((cfg2.win 4).blk t).view.set ↔ ∀ a : Fin 2, win2_4.index t a * S4000x40.size a ≤ (i a).val
      ∧ (i a).val < win2_4.index t a * S4000x40.size a + S4000x40.size a := by
  show i ∈ ((View.whole main_v56).slice (win2_4.rect t)).set ↔ _
  rw [View.set_slice_whole, Rect.mem_set_unit]
  exact Iff.rfl

/-- Every index (p, q) of the array lies in the block of point p / 4000. -/
theorem covered (i : S100000x40.Idx) :
    ∃ t : Fin cfg2.N, (cfg2.win 4).flush t = true ∧ i ∈ ((cfg2.win 4).blk t).view.set := by
  have hi0 : (i 0).val < 100000 := (i 0).isLt
  have hi1 : (i 1).val < 40 := (i 1).isLt
  obtain ⟨t, q0, q1⟩ := block_onto ⟨(i 0).val / 4000, by omega⟩
  refine ⟨t, flush2_4 t, ?_⟩
  rw [mem_block]
  intro a
  match a with
  | ⟨0, _⟩ =>
    show win2_4.index t 0 * 4000 ≤ (i 0).val ∧ (i 0).val < win2_4.index t 0 * 4000 + 4000
    rw [q0]
    show (i 0).val / 4000 * 4000 ≤ (i 0).val ∧ (i 0).val < (i 0).val / 4000 * 4000 + 4000
    omega
  | ⟨1, _⟩ =>
    show win2_4.index t 1 * 40 ≤ (i 1).val ∧ (i 1).val < win2_4.index t 1 * 40 + 40
    rw [q1]
    omega

end Region

end Softmax

/-- The third region leaves in its output array the row-wise log-softmax of the layer: every point writes back its rows
    of that one function, and the 25 row blocks fill the array. -/
theorem softmax_region (V : (c : Dev Cert.KernelIdeal.nD) → (b : Ref Cert.KernelIdeal.sig .tc) →
      Buf (Elt Ideal) ((c : Thread Cert.KernelIdeal.nD Cert.KernelIdeal.τ).loc b)) (c : Dev Cert.KernelIdeal.nD)
    (s : (⟨Cert.ReferenceIdeal.S100000, .f32⟩ : BufTy).Contents (Elt Ideal))
    (hcast : Cert.ReferenceIdeal.S100000.ShapeCasts Cert.ReferenceIdeal.S100000x1)
    (hs : V c Cert.KernelIdeal.main_v27 = shapeCast Cert.ReferenceIdeal.S100000x1 s hcast) :
    (Cert.KernelIdeal.Gen.dat2 (F := Ideal) V c).arrAt 4 Cert.KernelIdeal.cfg2.N
      = logSoftmaxRows (F := Ideal)
          (layer40 s (V c Cert.KernelIdeal.main_v55) (V c Cert.KernelIdeal.main_v42) (V c Cert.KernelIdeal.main_arg5)) :=
  (Cert.KernelIdeal.Gen.dat2 (F := Ideal) V c).arrAt_eq_of_cover 4 _
    (fun t _ => Softmax.flushed_softmax V c s hcast hs t) Softmax.covered

end Cert.Gcn

end
-- ==== Proof.KernelValue.lean ====
/-
  The kernel program's result array as the specification's function of the argument arrays.

  The run leaves the result at the last boundary's contents: the third region's output array. Region by region, the
  output array after a region is the specification's piece applied to the region's input arrays as it found them, and each
  of those is either an argument array as launched, an earlier region's output, or a host stretch's aggregate of one:
    after region 0:  x W1
    after region 1:  relu (layer16 s (aggregate16 e (x W1)) (x W1) b1) W2
    after region 2:  logSoftmaxRows (layer40 s (aggregate40 e h2) h2 b2),  h2 the line above, s the self weights of e.
-/
import proofs.«103483_j56642028700327_1_alg».proof.Proof.HostStretches
import proofs.«103483_j56642028700327_1_alg».proof.Proof.RegionProject
import proofs.«103483_j56642028700327_1_alg».proof.Proof.RegionHidden
import proofs.«103483_j56642028700327_1_alg».proof.Proof.RegionSoftmax

set_option maxRecDepth 16384

noncomputable section

namespace Cert.Gcn

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- After the first region its output array holds x W1. -/
theorem hidden1_exit0 (c : Dev nD) :
    W2 m ρ c (Proc.devRef .tc main_v28)
      = hidden1 (F := Ideal) (m ((c : Thread nD τ).loc main_arg0)) (m ((c : Thread nD τ).loc main_arg2)) :=
  (W2_arr m ρ c 2).trans ((project_region (V1 m ρ) c).trans
    (congrArg₂ (project16 (F := Ideal)) (Stretch.x_entry0 m ρ c) (Stretch.w1_entry0 m ρ c)))

/-- After the second region its output array holds relu (layer16 s (aggregate16 e (x W1)) (x W1) b1) W2. -/
theorem hidden2_exit1 (c : Dev nD) :
    W4 m ρ c (Proc.devRef .tc main_v42)
      = hidden2 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have h := hidden_region (V3 m ρ) c (selfWeight (F := Ideal) (m ((c : Thread nD τ).loc main_arg1)))
    shapeCasts_S100000_S100000x1 (Stretch.self_entry1 m ρ c)
  have ha : V3 m ρ c main_v41 = aggregate16 (F := Ideal) (m ((c : Thread nD τ).loc main_arg1))
      (hidden1 (F := Ideal) (m ((c : Thread nD τ).loc main_arg0)) (m ((c : Thread nD τ).loc main_arg2))) :=
    (Stretch.aggregate_entry1 m ρ c).trans (congrArg _ (hidden1_exit0 m ρ c))
  have hh : V3 m ρ c main_v28 = hidden1 (F := Ideal) (m ((c : Thread nD τ).loc main_arg0)) (m ((c : Thread nD τ).loc main_arg2)) :=
    (Stretch.features_entry1 m ρ c).trans (hidden1_exit0 m ρ c)
  have hb : V3 m ρ c main_arg3 = m ((c : Thread nD τ).loc main_arg3) := Stretch.b1_entry1 m ρ c
  have hw : V3 m ρ c main_arg4 = m ((c : Thread nD τ).loc main_arg4) := Stretch.w2_entry1 m ρ c
  rw [ha, hh, hb, hw] at h
  exact (W4_arr m ρ c 5).trans h

/-- After the third region its output array holds the whole network's value. -/
theorem result_exit2 (c : Dev nD) :
    W6 m ρ c (Proc.devRef .tc main_v56)
      = gcn (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  have h := softmax_region (V5 m ρ) c (selfWeight (F := Ideal) (m ((c : Thread nD τ).loc main_arg1)))
    shapeCasts_S100000_S100000x1 (Stretch.self_entry2 m ρ c)
  have ha : V5 m ρ c main_v55 = aggregate40 (F := Ideal) (m ((c : Thread nD τ).loc main_arg1))
      (hidden2 (F := Ideal) (m ((c : Thread nD τ).loc main_arg0)) (m ((c : Thread nD τ).loc main_arg1))
        (m ((c : Thread nD τ).loc main_arg2)) (m ((c : Thread nD τ).loc main_arg3)) (m ((c : Thread nD τ).loc main_arg4))) :=
    (Stretch.aggregate_entry2 m ρ c).trans (congrArg _ (hidden2_exit1 m ρ c))
  have hh : V5 m ρ c main_v42 = hidden2 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) :=
    (Stretch.features_entry2 m ρ c).trans (hidden2_exit1 m ρ c)
  have hb : V5 m ρ c main_arg5 = m ((c : Thread nD τ).loc main_arg5) := Stretch.b2_entry2 m ρ c
  rw [ha, hh, hb] at h
  exact (W6_arr m ρ c 4).trans h

end Cert.Gcn

end
-- ==== Proof.RefOps.lean ====
/-
  The reference program's line of 100 host operations, cut into four stretches, and the two short stretches read back.

  The stretches: the edge data with the first layer's sum (x W1, its aggregate, the self term and the bias), the rectifier,
  the second layer's sum, and the row-wise log-softmax. The rectifier and the log-softmax are inlined functions; their
  operations are first brought to the plain form, then each is read from an ARBITRARY valuation of the buffers: the
  rectifier leaves max (z, 0) of whatever its operand buffer holds, the log-softmax the row-wise log-softmax of it.
-/
import proofs.«103483_j56642028700327_1_alg».proof.Proof.RefRun
import proofs.«103483_j56642028700327_1_alg».proof.Proof.Spec

set_option maxRecDepth 16384
set_option Elab.async false

noncomputable section

namespace Cert.Gcn.Ref

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- Operations 1 to 58: the edge data, x W1, its aggregate, and the first layer's sum (through `main_v47`). -/
abbrev opsLayer1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_cst (constant S_ .f32 0x3F800000#32),
    unary main_cst main_v4 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S3200000x1 ![0] bcast_S3200000_S3200000x1_0 : (⟨S3200000, .i32⟩ : BufTy).Contents (Elt F) → (⟨S3200000x1, .i32⟩ : BufTy).Contents (Elt F)),
    ternary main_v5 main_v6 main_v4 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_c (constantI S_ 32 0#32),
    unary main_c main_v11 (broadcastInDim S3200000 ![] bcast_S_S3200000 : (⟨S_, .i32⟩ : BufTy).Contents (Elt F) → (⟨S3200000, .i32⟩ : BufTy).Contents (Elt F)),
    binary main_v1 main_v11 main_v12 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v13 (broadcastInDim S3200000 ![] bcast_S_S3200000 : (⟨S_, .i32⟩ : BufTy).Contents (Elt F) → (⟨S3200000, .i32⟩ : BufTy).Contents (Elt F)),
    binary main_v1 main_v13 main_v14 (addi : (⟨S3200000, .i32⟩ : BufTy).Contents (Elt F) → (⟨S3200000, .i32⟩ : BufTy).Contents (Elt F) → (⟨S3200000, .i32⟩ : BufTy).Contents (Elt F)),
    ternary main_v12 main_v14 main_v1 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v15 main_v16 (broadcastInDim S3200000x1 ![0] bcast_S3200000_S3200000x1_0 : (⟨S3200000, .i32⟩ : BufTy).Contents (Elt F) → (⟨S3200000x1, .i32⟩ : BufTy).Contents (Elt F)),
    binary main_v10 main_v16 main_v17 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_3 (constantI S_ 32 0#32),
    unary main_c_3 main_v18 (broadcastInDim S3200000 ![] bcast_S_S3200000 : (⟨S_, .i32⟩ : BufTy).Contents (Elt F) → (⟨S3200000, .i32⟩ : BufTy).Contents (Elt F)),
    binary main_v3 main_v18 main_v19 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v20 (broadcastInDim S3200000 ![] bcast_S_S3200000 : (⟨S_, .i32⟩ : BufTy).Contents (Elt F) → (⟨S3200000, .i32⟩ : BufTy).Contents (Elt F)),
    binary main_v3 main_v20 main_v21 (addi : (⟨S3200000, .i32⟩ : BufTy).Contents (Elt F) → (⟨S3200000, .i32⟩ : BufTy).Contents (Elt F) → (⟨S3200000, .i32⟩ : BufTy).Contents (Elt F)),
    ternary main_v19 main_v21 main_v3 main_v22 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v22 main_v23 (broadcastInDim S3200000x1 ![0] bcast_S3200000_S3200000x1_0 : (⟨S3200000, .i32⟩ : BufTy).Contents (Elt F) → (⟨S3200000x1, .i32⟩ : BufTy).Contents (Elt F)),
    binary main_v10 main_v23 main_v24 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v17 main_v24 main_v25 (mulf : (⟨S3200000, .f32⟩ : BufTy).Contents (Elt F) → (⟨S3200000, .f32⟩ : BufTy).Contents (Elt F) → (⟨S3200000, .f32⟩ : BufTy).Contents (Elt F)),
    binary main_v10 main_v10 main_v26 (mulf : (⟨S100000, .f32⟩ : BufTy).Contents (Elt F) → (⟨S100000, .f32⟩ : BufTy).Contents (Elt F) → (⟨S100000, .f32⟩ : BufTy).Contents (Elt F)),
    binary main_arg0 main_arg2 main_v27 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    nullary main_c_5 (constantI S_ 32 0#32),
    unary main_c_5 main_v28 (broadcastInDim S3200000 ![] bcast_S_S3200000 : (⟨S_, .i32⟩ : BufTy).Contents (Elt F) → (⟨S3200000, .i32⟩ : BufTy).Contents (Elt F)),
    binary main_v1 main_v28 main_v29 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 100000#32),
    unary main_c_6 main_v30 (broadcastInDim S3200000 ![] bcast_S_S3200000 : (⟨S_, .i32⟩ : BufTy).Contents (Elt F) → (⟨S3200000, .i32⟩ : BufTy).Contents (Elt F)),
    binary main_v1 main_v30 main_v31 (addi : (⟨S3200000, .i32⟩ : BufTy).Contents (Elt F) → (⟨S3200000, .i32⟩ : BufTy).Contents (Elt F) → (⟨S3200000, .i32⟩ : BufTy).Contents (Elt F)),
    ternary main_v29 main_v31 main_v1 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v32 main_v33 (broadcastInDim S3200000x1 ![0] bcast_S3200000_S3200000x1_0 : (⟨S3200000, .i32⟩ : BufTy).Contents (Elt F) → (⟨S3200000x1, .i32⟩ : BufTy).Contents (Elt F)),
    binary main_v27 main_v33 main_v34 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v25 main_v35 (broadcastInDim S3200000x1 ![0] bcast_S3200000_S3200000x1_0 : (⟨S3200000, .f32⟩ : BufTy).Contents (Elt F) → (⟨S3200000x1, .f32⟩ : BufTy).Contents (Elt F)),
    unary main_v35 main_v36 (broadcastInDim S3200000x16 ![0, 1] bcast_S3200000x1_S3200000x16_0_1 : (⟨S3200000x1, .f32⟩ : BufTy).Contents (Elt F) → (⟨S3200000x16, .f32⟩ : BufTy).Contents (Elt F)),
    binary main_v34 main_v36 main_v37 (mulf : (⟨S3200000x16, .f32⟩ : BufTy).Contents (Elt F) → (⟨S3200000x16, .f32⟩ : BufTy).Contents (Elt F) → (⟨S3200000x16, .f32⟩ : BufTy).Contents (Elt F)),
    nullary main_cst_7 (constant S_ .f32 0x00000000#32),
    unary main_cst_7 main_v38 (broadcastInDim S100000x16 ![] bcast_S_S100000x16 : (⟨S_, .f32⟩ : BufTy).Contents (Elt F) → (⟨S100000x16, .f32⟩ : BufTy).Contents (Elt F)),
    unary main_v3 main_v39 (broadcastInDim S3200000x1 ![0] bcast_S3200000_S3200000x1_0 : (⟨S3200000, .i32⟩ : BufTy).Contents (Elt F) → (⟨S3200000x1, .i32⟩ : BufTy).Contents (Elt F)),
    ternary main_v38 main_v39 main_v37 main_v40 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    unary main_v26 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x16 ![0, 1] bcast_S100000x1_S100000x16_0_1 : (⟨S100000x1, .f32⟩ : BufTy).Contents (Elt F) → (⟨S100000x16, .f32⟩ : BufTy).Contents (Elt F)),
    binary main_v27 main_v42 main_v43 (mulf : (⟨S100000x16, .f32⟩ : BufTy).Contents (Elt F) → (⟨S100000x16, .f32⟩ : BufTy).Contents (Elt F) → (⟨S100000x16, .f32⟩ : BufTy).Contents (Elt F)),
    binary main_v40 main_v43 main_v44 (addf : (⟨S100000x16, .f32⟩ : BufTy).Contents (Elt F) → (⟨S100000x16, .f32⟩ : BufTy).Contents (Elt F) → (⟨S100000x16, .f32⟩ : BufTy).Contents (Elt F)),
    unary main_arg3 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)) ]

/-- Operations 59 to 61: the rectifier (through `main_v48`). -/
abbrev opsRelu : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v47) (TRef.of (T := ⟨S100000x16, .f32⟩) main_call0_v0) (TRef.of (T := ⟨S100000x16, .f32⟩) main_v48) maximumf ]

/-- Operations 62 to 85: the second product, its aggregate, and the second layer's sum (through `main_v69`). -/
abbrev opsLayer2 : List (HloOp τ sig (Elt F)) :=
  [ binary main_v48 main_arg4 main_v49 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_8 (constantI S_ 32 0#32),
    unary main_c_8 main_v50 (broadcastInDim S3200000 ![] bcast_S_S3200000 : (⟨S_, .i32⟩ : BufTy).Contents (Elt F) → (⟨S3200000, .i32⟩ : BufTy).Contents (Elt F)),
    binary main_v1 main_v50 main_v51 (cmpi .slt : (⟨S3200000, .i32⟩ : BufTy).Contents (Elt F) → (⟨S3200000, .i32⟩ : BufTy).Contents (Elt F) → (⟨S3200000, .i1⟩ : BufTy).Contents (Elt F)),
    nullary main_c_9 (constantI S_ 32 100000#32),
    unary main_c_9 main_v52 (broadcastInDim S3200000 ![] bcast_S_S3200000 : (⟨S_, .i32⟩ : BufTy).Contents (Elt F) → (⟨S3200000, .i32⟩ : BufTy).Contents (Elt F)),
    binary main_v1 main_v52 main_v53 (addi : (⟨S3200000, .i32⟩ : BufTy).Contents (Elt F) → (⟨S3200000, .i32⟩ : BufTy).Contents (Elt F) → (⟨S3200000, .i32⟩ : BufTy).Contents (Elt F)),
    ternary main_v51 main_v53 main_v1 main_v54 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v54 main_v55 (broadcastInDim S3200000x1 ![0] bcast_S3200000_S3200000x1_0 : (⟨S3200000, .i32⟩ : BufTy).Contents (Elt F) → (⟨S3200000x1, .i32⟩ : BufTy).Contents (Elt F)),
    binary main_v49 main_v55 main_v56 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    unary main_v25 main_v57 (broadcastInDim S3200000x1 ![0] bcast_S3200000_S3200000x1_0 : (⟨S3200000, .f32⟩ : BufTy).Contents (Elt F) → (⟨S3200000x1, .f32⟩ : BufTy).Contents (Elt F)),
    unary main_v57 main_v58 (broadcastInDim S3200000x40 ![0, 1] bcast_S3200000x1_S3200000x40_0_1 : (⟨S3200000x1, .f32⟩ : BufTy).Contents (Elt F) → (⟨S3200000x40, .f32⟩ : BufTy).Contents (Elt F)),
    binary main_v56 main_v58 main_v59 (mulf : (⟨S3200000x40, .f32⟩ : BufTy).Contents (Elt F) → (⟨S3200000x40, .f32⟩ : BufTy).Contents (Elt F) → (⟨S3200000x40, .f32⟩ : BufTy).Contents (Elt F)),
    nullary main_cst_10 (constant S_ .f32 0x00000000#32),
    unary main_cst_10 main_v60 (broadcastInDim S100000x40 ![] bcast_S_S100000x40 : (⟨S_, .f32⟩ : BufTy).Contents (Elt F) → (⟨S100000x40, .f32⟩ : BufTy).Contents (Elt F)),
    unary main_v3 main_v61 (broadcastInDim S3200000x1 ![0] bcast_S3200000_S3200000x1_0 : (⟨S3200000, .i32⟩ : BufTy).Contents (Elt F) → (⟨S3200000x1, .i32⟩ : BufTy).Contents (Elt F)),
    ternary main_v60 main_v61 main_v59 main_v62 ((fun x i u => Host.scatterAdd scatter_S100000x40_S3200000x1_S3200000x40_1_0_0_1 x i u) : (⟨S100000x40, .f32⟩ : BufTy).Contents (Elt F) → (⟨S3200000x1, .i32⟩ : BufTy).Contents (Elt F) → (⟨S3200000x40, .f32⟩ : BufTy).Contents (Elt F) → (⟨S100000x40, .f32⟩ : BufTy).Contents (Elt F)),
    unary main_v26 main_v63 (broadcastInDim S100000x1 ![0] bcast_S100000_S100000x1_0 : (⟨S100000, .f32⟩ : BufTy).Contents (Elt F) → (⟨S100000x1, .f32⟩ : BufTy).Contents (Elt F)),
    unary main_v63 main_v64 (broadcastInDim S100000x40 ![0, 1] bcast_S100000x1_S100000x40_0_1 : (⟨S100000x1, .f32⟩ : BufTy).Contents (Elt F) → (⟨S100000x40, .f32⟩ : BufTy).Contents (Elt F)),
    binary main_v49 main_v64 main_v65 (mulf : (⟨S100000x40, .f32⟩ : BufTy).Contents (Elt F) → (⟨S100000x40, .f32⟩ : BufTy).Contents (Elt F) → (⟨S100000x40, .f32⟩ : BufTy).Contents (Elt F)),
    binary main_v62 main_v65 main_v66 (addf : (⟨S100000x40, .f32⟩ : BufTy).Contents (Elt F) → (⟨S100000x40, .f32⟩ : BufTy).Contents (Elt F) → (⟨S100000x40, .f32⟩ : BufTy).Contents (Elt F)),
    unary main_arg5 main_v67 (broadcastInDim S1x40 ![1] bcast_S40_S1x40_1 : (⟨S40, .f32⟩ : BufTy).Contents (Elt F) → (⟨S1x40, .f32⟩ : BufTy).Contents (Elt F)),
    unary main_v67 main_v68 (broadcastInDim S100000x40 ![0, 1] bcast_S1x40_S100000x40_0_1 : (⟨S1x40, .f32⟩ : BufTy).Contents (Elt F) → (⟨S100000x40, .f32⟩ : BufTy).Contents (Elt F)),
    binary main_v66 main_v68 main_v69 (addf : (⟨S100000x40, .f32⟩ : BufTy).Contents (Elt F) → (⟨S100000x40, .f32⟩ : BufTy).Contents (Elt F) → (⟨S100000x40, .f32⟩ : BufTy).Contents (Elt F)) ]

/-- Operations 86 to 100: the row-wise log-softmax (through `main_v70`). -/
abbrev opsSoftmax : List (HloOp τ sig (Elt F)) :=
  [ TRef.nullary (TRef.of (T := ⟨S_, .f32⟩) main_call1_cst) (constant S_ .f32 0xFF800000#32),
    TRef.binary (TRef.of (T := ⟨S100000x40, .f32⟩) main_v69) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v69) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v70) subf ]

/-- The rectifier's three operations over the buffers themselves. -/
abbrev opsReluPlain : List (HloOp τ sig (Elt F)) :=
  [ nullary main_call0_cst (((constant S_ .f32 0x00000000#32)) : (⟨S_, .f32⟩ : BufTy).Contents (Elt F)),
    unary main_call0_cst main_call0_v0 (((broadcastInDim S100000x16 ![] bcast_S_S100000x16)) : (⟨S_, .f32⟩ : BufTy).Contents (Elt F) → (⟨S100000x16, .f32⟩ : BufTy).Contents (Elt F)),
    binary main_v47 main_call0_v0 main_v48 ((maximumf) : (⟨S100000x16, .f32⟩ : BufTy).Contents (Elt F) → (⟨S100000x16, .f32⟩ : BufTy).Contents (Elt F) → (⟨S100000x16, .f32⟩ : BufTy).Contents (Elt F)) ]

/-- The log-softmax's fifteen operations over the buffers themselves. -/
abbrev opsSoftmaxPlain : List (HloOp τ sig (Elt F)) :=
  [ nullary main_call1_cst (((constant S_ .f32 0xFF800000#32)) : (⟨S_, .f32⟩ : BufTy).Contents (Elt F)),
    binary main_v69 main_call1_cst main_call1_v0 (((fun x v => Host.reduce FloatOps.maximumf x v reducesTo_S100000x40_S100000_d1 h_S_)) : (⟨S100000x40, .f32⟩ : BufTy).Contents (Elt F) → (⟨S_, .f32⟩ : BufTy).Contents (Elt F) → (⟨S100000, .f32⟩ : BufTy).Contents (Elt F)),
    nullary main_call1_cst_0 (((constant S_ .f32 0xFF800000#32)) : (⟨S_, .f32⟩ : BufTy).Contents (Elt F)),
    unary main_call1_cst_0 main_call1_v1 (((broadcastInDim S100000 ![] bcast_S_S100000)) : (⟨S_, .f32⟩ : BufTy).Contents (Elt F) → (⟨S100000, .f32⟩ : BufTy).Contents (Elt F)),
    binary main_call1_v1 main_call1_v0 main_call1_v2 ((maximumf) : (⟨S100000, .f32⟩ : BufTy).Contents (Elt F) → (⟨S100000, .f32⟩ : BufTy).Contents (Elt F) → (⟨S100000, .f32⟩ : BufTy).Contents (Elt F)),
    unary main_call1_v2 main_call1_v3 (((broadcastInDim S100000x1 ![0] bcast_S100000_S100000x1_0)) : (⟨S100000, .f32⟩ : BufTy).Contents (Elt F) → (⟨S100000x1, .f32⟩ : BufTy).Contents (Elt F)),
    unary main_call1_v3 main_call1_v4 (((broadcastInDim S100000x40 ![0, 1] bcast_S100000x1_S100000x40_0_1)) : (⟨S100000x1, .f32⟩ : BufTy).Contents (Elt F) → (⟨S100000x40, .f32⟩ : BufTy).Contents (Elt F)),
    binary main_v69 main_call1_v4 main_call1_v5 ((subf) : (⟨S100000x40, .f32⟩ : BufTy).Contents (Elt F) → (⟨S100000x40, .f32⟩ : BufTy).Contents (Elt F) → (⟨S100000x40, .f32⟩ : BufTy).Contents (Elt F)),
    unary main_call1_v5 main_call1_v6 ((Host.exp) : (⟨S100000x40, .f32⟩ : BufTy).Contents (Elt F) → (⟨S100000x40, .f32⟩ : BufTy).Contents (Elt F)),
    nullary main_call1_cst_1 (((constant S_ .f32 0x00000000#32)) : (⟨S_, .f32⟩ : BufTy).Contents (Elt F)),
    binary main_call1_v6 main_call1_cst_1 main_call1_v7 (((fun x v => Host.reduceAdd x v reducesTo_S100000x40_S100000_d1 h_S_)) : (⟨S100000x40, .f32⟩ : BufTy).Contents (Elt F) → (⟨S_, .f32⟩ : BufTy).Contents (Elt F) → (⟨S100000, .f32⟩ : BufTy).Contents (Elt F)),
    unary main_call1_v7 main_call1_v8 (((broadcastInDim S100000x1 ![0] bcast_S100000_S100000x1_0)) : (⟨S100000, .f32⟩ : BufTy).Contents (Elt F) → (⟨S100000x1, .f32⟩ : BufTy).Contents (Elt F)),
    unary main_call1_v8 main_call1_v9 ((Host.log) : (⟨S100000x1, .f32⟩ : BufTy).Contents (Elt F) → (⟨S100000x1, .f32⟩ : BufTy).Contents (Elt F)),
    unary main_call1_v9 main_call1_v10 (((broadcastInDim S100000x40 ![0, 1] bcast_S100000x1_S100000x40_0_1)) : (⟨S100000x1, .f32⟩ : BufTy).Contents (Elt F) → (⟨S100000x40, .f32⟩ : BufTy).Contents (Elt F)),
    binary main_call1_v5 main_call1_v10 main_v70 ((subf) : (⟨S100000x40, .f32⟩ : BufTy).Contents (Elt F) → (⟨S100000x40, .f32⟩ : BufTy).Contents (Elt F) → (⟨S100000x40, .f32⟩ : BufTy).Contents (Elt F)) ]

/-! ## References that carry their tensor type

The two inlined functions' operations are printed over references that carry the type of the tensor they hold, the
operation's function moved to the buffer's own type along the (trivial) equation between the two. Whatever the function
is, such an operation is the plain one at the buffer. -/

theorem plain_softmax1 (v : (⟨S_, .f32⟩ : BufTy).Contents (Elt F)) :
    (TRef.nullary (TRef.of (T := ⟨S_, .f32⟩) main_call1_cst) v : HloOp τ sig (Elt F)) = nullary main_call1_cst v := rfl
theorem plain_softmax2 (f : (⟨S100000x40, .f32⟩ : BufTy).Contents (Elt F) → (⟨S_, .f32⟩ : BufTy).Contents (Elt F) → (⟨S100000, .f32⟩ : BufTy).Contents (Elt F)) :
    (TRef.binary (TRef.of (T := ⟨S100000x40, .f32⟩) main_v69) (TRef.of (T := ⟨S_, .f32⟩) main_call1_cst) (TRef.of (T := ⟨S100000, .f32⟩) main_call1_v0) f : HloOp τ sig (Elt F)) = binary main_v69 main_call1_cst main_call1_v0 f := rfl
theorem plain_softmax3 (v : (⟨S_, .f32⟩ : BufTy).Contents (Elt F)) :
    (TRef.nullary (TRef.of (T := ⟨S_, .f32⟩) main_call1_cst_0) v : HloOp τ sig (Elt F)) = nullary main_call1_cst_0 v := rfl
theorem plain_softmax4 (f : (⟨S_, .f32⟩ : BufTy).Contents (Elt F) → (⟨S100000, .f32⟩ : BufTy).Contents (Elt F)) :
    (TRef.unary (TRef.of (T := ⟨S_, .f32⟩) main_call1_cst_0) (TRef.of (T := ⟨S100000, .f32⟩) main_call1_v1) f : HloOp τ sig (Elt F)) = unary main_call1_cst_0 main_call1_v1 f := rfl
theorem plain_softmax5 (f : (⟨S100000, .f32⟩ : BufTy).Contents (Elt F) → (⟨S100000, .f32⟩ : BufTy).Contents (Elt F) → (⟨S100000, .f32⟩ : BufTy).Contents (Elt F)) :
    (TRef.binary (TRef.of (T := ⟨S100000, .f32⟩) main_call1_v1) (TRef.of (T := ⟨S100000, .f32⟩) main_call1_v0) (TRef.of (T := ⟨S100000, .f32⟩) main_call1_v2) f : HloOp τ sig (Elt F)) = binary main_call1_v1 main_call1_v0 main_call1_v2 f := rfl
theorem plain_softmax6 (f : (⟨S100000, .f32⟩ : BufTy).Contents (Elt F) → (⟨S100000x1, .f32⟩ : BufTy).Contents (Elt F)) :
    (TRef.unary (TRef.of (T := ⟨S100000, .f32⟩) main_call1_v2) (TRef.of (T := ⟨S100000x1, .f32⟩) main_call1_v3) f : HloOp τ sig (Elt F)) = unary main_call1_v2 main_call1_v3 f := rfl
theorem plain_softmax7 (f : (⟨S100000x1, .f32⟩ : BufTy).Contents (Elt F) → (⟨S100000x40, .f32⟩ : BufTy).Contents (Elt F)) :
    (TRef.unary (TRef.of (T := ⟨S100000x1, .f32⟩) main_call1_v3) (TRef.of (T := ⟨S100000x40, .f32⟩) main_call1_v4) f : HloOp τ sig (Elt F)) = unary main_call1_v3 main_call1_v4 f := rfl
theorem plain_softmax8 (f : (⟨S100000x40, .f32⟩ : BufTy).Contents (Elt F) → (⟨S100000x40, .f32⟩ : BufTy).Contents (Elt F) → (⟨S100000x40, .f32⟩ : BufTy).Contents (Elt F)) :
    (TRef.binary (TRef.of (T := ⟨S100000x40, .f32⟩) main_v69) (TRef.of (T := ⟨S100000x40, .f32⟩) main_call1_v4) (TRef.of (T := ⟨S100000x40, .f32⟩) main_call1_v5) f : HloOp τ sig (Elt F)) = binary main_v69 main_call1_v4 main_call1_v5 f := rfl
theorem plain_softmax9 (f : (⟨S100000x40, .f32⟩ : BufTy).Contents (Elt F) → (⟨S100000x40, .f32⟩ : BufTy).Contents (Elt F)) :
    (TRef.unary (TRef.of (T := ⟨S100000x40, .f32⟩) main_call1_v5) (TRef.of (T := ⟨S100000x40, .f32⟩) main_call1_v6) f : HloOp τ sig (Elt F)) = unary main_call1_v5 main_call1_v6 f := rfl
theorem plain_softmax10 (v : (⟨S_, .f32⟩ : BufTy).Contents (Elt F)) :
    (TRef.nullary (TRef.of (T := ⟨S_, .f32⟩) main_call1_cst_1) v : HloOp τ sig (Elt F)) = nullary main_call1_cst_1 v := rfl
theorem plain_softmax11 (f : (⟨S100000x40, .f32⟩ : BufTy).Contents (Elt F) → (⟨S_, .f32⟩ : BufTy).Contents (Elt F) → (⟨S100000, .f32⟩ : BufTy).Contents (Elt F)) :
    (TRef.binary (TRef.of (T := ⟨S100000x40, .f32⟩) main_call1_v6) (TRef.of (T := ⟨S_, .f32⟩) main_call1_cst_1) (TRef.of (T := ⟨S100000, .f32⟩) main_call1_v7) f : HloOp τ sig (Elt F)) = binary main_call1_v6 main_call1_cst_1 main_call1_v7 f := rfl
theorem plain_softmax12 (f : (⟨S100000, .f32⟩ : BufTy).Contents (Elt F) → (⟨S100000x1, .f32⟩ : BufTy).Contents (Elt F)) :
    (TRef.unary (TRef.of (T := ⟨S100000, .f32⟩) main_call1_v7) (TRef.of (T := ⟨S100000x1, .f32⟩) main_call1_v8) f : HloOp τ sig (Elt F)) = unary main_call1_v7 main_call1_v8 f := rfl
theorem plain_softmax13 (f : (⟨S100000x1, .f32⟩ : BufTy).Contents (Elt F) → (⟨S100000x1, .f32⟩ : BufTy).Contents (Elt F)) :
    (TRef.unary (TRef.of (T := ⟨S100000x1, .f32⟩) main_call1_v8) (TRef.of (T := ⟨S100000x1, .f32⟩) main_call1_v9) f : HloOp τ sig (Elt F)) = unary main_call1_v8 main_call1_v9 f := rfl
theorem plain_softmax14 (f : (⟨S100000x1, .f32⟩ : BufTy).Contents (Elt F) → (⟨S100000x40, .f32⟩ : BufTy).Contents (Elt F)) :
    (TRef.unary (TRef.of (T := ⟨S100000x1, .f32⟩) main_call1_v9) (TRef.of (T := ⟨S100000x40, .f32⟩) main_call1_v10) f : HloOp τ sig (Elt F)) = unary main_call1_v9 main_call1_v10 f := rfl
theorem plain_softmax15 (f : (⟨S100000x40, .f32⟩ : BufTy).Contents (Elt F) → (⟨S100000x40, .f32⟩ : BufTy).Contents (Elt F) → (⟨S100000x40, .f32⟩ : BufTy).Contents (Elt F)) :
    (TRef.binary (TRef.of (T := ⟨S100000x40, .f32⟩) main_call1_v5) (TRef.of (T := ⟨S100000x40, .f32⟩) main_call1_v10) (TRef.of (T := ⟨S100000x40, .f32⟩) main_v70) f : HloOp τ sig (Elt F)) = binary main_call1_v5 main_call1_v10 main_v70 f := rfl

/-- The rectifier's operations as printed are the plain ones. -/
theorem relu_plain : (opsRelu : List (HloOp τ sig (Elt F))) = opsReluPlain := rfl

/-- The log-softmax's operations as printed are the plain ones, one operation at a time. -/
theorem softmax_plain : (opsSoftmax : List (HloOp τ sig (Elt F))) = opsSoftmaxPlain := by
  simp only [opsSoftmax, opsSoftmaxPlain, plain_softmax1, plain_softmax2, plain_softmax3, plain_softmax4, plain_softmax5, plain_softmax6, plain_softmax7, plain_softmax8, plain_softmax9, plain_softmax10, plain_softmax11, plain_softmax12, plain_softmax13, plain_softmax14, plain_softmax15]

/-- The program's operation list is the four stretches in order. -/
theorem ops_stretches :
    (ops : List (HloOp τ sig (Elt F))) = opsLayer1 ++ (opsReluPlain ++ (opsLayer2 ++ opsSoftmaxPlain)) := by
  rw [← relu_plain, ← softmax_plain]
  rfl

/-- Folding a concatenation folds the first list, then the second from where the first ended. -/
theorem after_append (a b : List (HloOp τ sig (Elt F))) (V : Valuation τ sig (Elt F)) :
    after (a ++ b) V = after b (after a V) := by
  induction a generalizing V with
  | nil => rfl
  | cons op a ih => exact ih _

variable (W : Valuation τ sig (Elt F))

/-! ## The rectifier -/

theorem relu_out : after opsReluPlain W (Proc.devRef .tc main_v48) = relu16 (F := F) (W (Proc.devRef .tc main_v47)) := by
  after_results_simp <;> rfl
theorem relu_src : after opsReluPlain W (Proc.devRef .tc main_v1) = W (Proc.devRef .tc main_v1) := by after_results_simp <;> rfl
theorem relu_dst : after opsReluPlain W (Proc.devRef .tc main_v3) = W (Proc.devRef .tc main_v3) := by after_results_simp <;> rfl
theorem relu_weight : after opsReluPlain W (Proc.devRef .tc main_v25) = W (Proc.devRef .tc main_v25) := by after_results_simp <;> rfl
theorem relu_self : after opsReluPlain W (Proc.devRef .tc main_v26) = W (Proc.devRef .tc main_v26) := by after_results_simp <;> rfl
theorem relu_w2 : after opsReluPlain W (Proc.devRef .tc main_arg4) = W (Proc.devRef .tc main_arg4) := by after_results_simp <;> rfl
theorem relu_b2 : after opsReluPlain W (Proc.devRef .tc main_arg5) = W (Proc.devRef .tc main_arg5) := by after_results_simp <;> rfl

/-! ## The log-softmax -/

theorem softmax_out : after opsSoftmaxPlain W (Proc.devRef .tc main_v70) = logSoftmaxRows (F := F) (W (Proc.devRef .tc main_v69)) := by
  after_results_simp <;> rfl

end Cert.Gcn.Ref

end
-- ==== Proof.RefValue.lean ====
/-
  The reference program's result array as the specification's function of the argument arrays.

  The two long stretches of the operation list are read from an arbitrary valuation: the first leaves the first layer's
  sum of the argument buffers' contents (and the edge data the second needs), the second the second layer's sum of the
  rectified features it starts from. Folding the whole line is folding the four stretches in turn, which composes to the
  network's value.
-/
import proofs.«103483_j56642028700327_1_alg».proof.Proof.RefOps

set_option maxRecDepth 16384
set_option Elab.async false

noncomputable section

namespace Cert.Gcn.Ref

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

variable (W : Valuation τ sig (Elt F))

/-! ## The first stretch -/

/-- The first layer's sum (a + h * s) + b1 with h = x W1, a its aggregate, s the self weights. -/
theorem layer1_sum :
    after opsLayer1 W (Proc.devRef .tc main_v47)
      = layer16 (F := F) (selfWeight (W (Proc.devRef .tc main_arg1)))
          (aggregate16 (W (Proc.devRef .tc main_arg1)) (hidden1 (W (Proc.devRef .tc main_arg0)) (W (Proc.devRef .tc main_arg2))))
          (hidden1 (W (Proc.devRef .tc main_arg0)) (W (Proc.devRef .tc main_arg2))) (W (Proc.devRef .tc main_arg3)) := by
  after_results_simp <;> rfl
theorem layer1_src : after opsLayer1 W (Proc.devRef .tc main_v1) = edgeSrc (F := F) (W (Proc.devRef .tc main_arg1)) := by
  after_results_simp <;> rfl
theorem layer1_dst : after opsLayer1 W (Proc.devRef .tc main_v3) = edgeDst (F := F) (W (Proc.devRef .tc main_arg1)) := by
  after_results_simp <;> rfl
theorem layer1_weight : after opsLayer1 W (Proc.devRef .tc main_v25) = edgeWeight (F := F) (W (Proc.devRef .tc main_arg1)) := by
  after_results_simp <;> rfl
theorem layer1_self : after opsLayer1 W (Proc.devRef .tc main_v26) = selfWeight (F := F) (W (Proc.devRef .tc main_arg1)) := by
  after_results_simp <;> rfl
theorem layer1_w2 : after opsLayer1 W (Proc.devRef .tc main_arg4) = W (Proc.devRef .tc main_arg4) := by
  after_results_simp <;> rfl
theorem layer1_b2 : after opsLayer1 W (Proc.devRef .tc main_arg5) = W (Proc.devRef .tc main_arg5) := by
  after_results_simp <;> rfl

/-! ## The second stretch -/

/-- The second layer's sum (a + h * s) + b2 with h = z W2 for the rectified features z the stretch starts from. -/
theorem layer2_sum (e : (⟨S2x3200000, .i32⟩ : BufTy).Contents (Elt F))
    (hsrc : W (Proc.devRef .tc main_v1) = edgeSrc (F := F) e) (hdst : W (Proc.devRef .tc main_v3) = edgeDst (F := F) e)
    (hwt : W (Proc.devRef .tc main_v25) = edgeWeight (F := F) e) (hself : W (Proc.devRef .tc main_v26) = selfWeight (F := F) e) :
    after opsLayer2 W (Proc.devRef .tc main_v69)
      = layer40 (F := F) (selfWeight e)
          (aggregate40 e (project40 (W (Proc.devRef .tc main_v48)) (W (Proc.devRef .tc main_arg4))))
          (project40 (W (Proc.devRef .tc main_v48)) (W (Proc.devRef .tc main_arg4))) (W (Proc.devRef .tc main_arg5)) := by
  after_results_simp
  rw [hsrc, hdst, hwt, hself]
  rfl

/-! ## The whole line -/

/-- From any valuation, the fold of the program's operations leaves the result buffer at the network's value of the
    argument buffers' contents. -/
theorem result_value :
    after ops W (Proc.devRef .tc main_v70)
      = gcn (F := F) (W (Proc.devRef .tc main_arg0)) (W (Proc.devRef .tc main_arg1)) (W (Proc.devRef .tc main_arg2)) (W (Proc.devRef .tc main_arg3))
          (W (Proc.devRef .tc main_arg4)) (W (Proc.devRef .tc main_arg5)) := by
  rw [ops_stretches, after_append, after_append, after_append, softmax_out,
    layer2_sum (after opsReluPlain (after opsLayer1 W)) (W (Proc.devRef .tc main_arg1))
      ((relu_src _).trans (layer1_src W)) ((relu_dst _).trans (layer1_dst W))
      ((relu_weight _).trans (layer1_weight W)) ((relu_self _).trans (layer1_self W)),
    relu_out, layer1_sum, relu_w2, layer1_w2, relu_b2, layer1_b2]
  rfl

end Cert.Gcn.Ref

end
-- ==== Proof.lean ====
/-
  A two-layer graph convolution with a row-wise log-softmax: the tiled kernel program against its plain reference, over
  the extended reals.

  With n = 100000 nodes, E = 3200000 edges (src e, dst e), d = (1 + in-degree)^(-1/2), both programs compute
      logSoftmaxRows (L (relu (L (x W1) b1) W2) b2),     L h b = (A h + h * (d * d)) + b,
      (A h) v = sum over edges e into v of h (src e) * (d (src e) * d (dst e)).
  The kernel program does the two products, the self term, the bias, the rectifier and the log-softmax in three tiled
  regions over blocks of 4000 rows and leaves the data-dependent gathers and scatter-adds to host operations between
  them; the reference is one line of host operations. Nothing has to be finite: the two sides are the same expression
  once a tiled product is read as the sum over the contracted coordinate, a row reduction inside a block as the row
  reduction of the array, and a format change as the identity.

  The pieces: Proof/Spec.lean states the network as one function `Cert.Gcn.gcn` of the argument arrays in the reference's
  operations; Proof/RegionProject.lean, RegionHidden.lean and RegionSoftmax.lean read each region's output array as that
  function's piece of the region's input arrays; Proof/HostStretches.lean reads the host operations between the regions;
  Proof/KernelValue.lean chains them to the kernel program's result; Proof/RefOps.lean and Proof/RefValue.lean read the
  reference's line of operations in four stretches. The kernel programs' frames are the generated ones; the kernel program's run with its
  result named (Proof/KernelRun.lean) and the reference's run (Proof/RefRun.lean) are the generated launch and run again.
-/
import proofs.«103483_j56642028700327_1_alg».proof.Defs
import proofs.«103483_j56642028700327_1_alg».proof.Proof.Gen.Kernel
import proofs.«103483_j56642028700327_1_alg».proof.Proof.Gen.Kernel.Skeleton
import proofs.«103483_j56642028700327_1_alg».proof.Proof.Gen.Kernel.Launch
import proofs.«103483_j56642028700327_1_alg».proof.Proof.Gen.Kernel.Points
import proofs.«103483_j56642028700327_1_alg».proof.Proof.Gen.Kernel.Frame
import proofs.«103483_j56642028700327_1_alg».proof.Proof.Gen.KernelIdeal
import proofs.«103483_j56642028700327_1_alg».proof.Proof.Gen.KernelIdeal.Skeleton
import proofs.«103483_j56642028700327_1_alg».proof.Proof.Gen.KernelIdeal.Launch
import proofs.«103483_j56642028700327_1_alg».proof.Proof.Gen.KernelIdeal.Points
import proofs.«103483_j56642028700327_1_alg».proof.Proof.Gen.KernelIdeal.Frame
import proofs.«103483_j56642028700327_1_alg».proof.Proof.Gen.ReferenceIdeal
import proofs.«103483_j56642028700327_1_alg».proof.Proof.Gen.Pre_finite_inputs
import proofs.«103483_j56642028700327_1_alg».proof.Proof.KernelRun
import proofs.«103483_j56642028700327_1_alg».proof.Proof.KernelValue
import proofs.«103483_j56642028700327_1_alg».proof.Proof.RefRun
import proofs.«103483_j56642028700327_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the network's value of those arguments: the kernel
    program's result is the third region's output array (`Cert.Gcn.result_exit2`), the reference's the fold of its
    operations (`Cert.Gcn.Ref.result_value`). -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.result_exit2 m ρ c), (h c).2⟩) (Cert.KernelIdeal.GenRun.run_named (F := Ideal) m ρ)
  · refine (θ_run Cert.ReferenceIdeal.defs _ _).mono (fun _ h c => ⟨(h c).1.trans ?_, (h c).2⟩)
      (Cert.ReferenceIdeal.RunP.run (F := Ideal) m' ρ')
    have e0 : launchContents m' c (Proc.devRef .tc Cert.ReferenceIdeal.main_arg0) = (m ((c.tc : Thread Cert.KernelIdeal.nD Cert.KernelIdeal.τ).loc Cert.KernelIdeal.main_arg0)) := (hagree c).1
    have e1 : launchContents m' c (Proc.devRef .tc Cert.ReferenceIdeal.main_arg1) = (m ((c.tc : Thread Cert.KernelIdeal.nD Cert.KernelIdeal.τ).loc Cert.KernelIdeal.main_arg1)) := (hagree c).2.1
    have e2 : launchContents m' c (Proc.devRef .tc Cert.ReferenceIdeal.main_arg2) = (m ((c.tc : Thread Cert.KernelIdeal.nD Cert.KernelIdeal.τ).loc Cert.KernelIdeal.main_arg2)) := (hagree c).2.2.1
    have e3 : launchContents m' c (Proc.devRef .tc Cert.ReferenceIdeal.main_arg3) = (m ((c.tc : Thread Cert.KernelIdeal.nD Cert.KernelIdeal.τ).loc Cert.KernelIdeal.main_arg3)) := (hagree c).2.2.2.1
    have e4 : launchContents m' c (Proc.devRef .tc Cert.ReferenceIdeal.main_arg4) = (m ((c.tc : Thread Cert.KernelIdeal.nD Cert.KernelIdeal.τ).loc Cert.KernelIdeal.main_arg4)) := (hagree c).2.2.2.2.1
    have e5 : launchContents m' c (Proc.devRef .tc Cert.ReferenceIdeal.main_arg5) = (m ((c.tc : Thread Cert.KernelIdeal.nD Cert.KernelIdeal.τ).loc Cert.KernelIdeal.main_arg5)) := (hagree c).2.2.2.2.2
    rw [Cert.Gcn.Ref.result_value, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
